-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x16384 : Shape := ⟨2, ![16384, 16384]⟩
abbrev S10000x256 : Shape := ⟨2, ![10000, 256]⟩
abbrev S3x256x256 : Shape := ⟨3, ![3, 256, 256]⟩
abbrev S3x256 : Shape := ⟨2, ![3, 256]⟩
abbrev S256x2 : Shape := ⟨2, ![256, 2]⟩
abbrev S2 : Shape := ⟨1, ![2]⟩
abbrev S_ : Shape := ⟨0, ![]⟩
abbrev S16384x1 : Shape := ⟨2, ![16384, 1]⟩
abbrev S1x16384 : Shape := ⟨2, ![1, 16384]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S16384 : S_.BroadcastsInDim S16384 (![] : Fin 0 → Fin S16384.rank)
  reducesTo_S16384_S_d0 : S16384.ReducesTo [0] S_
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)

variable [Facts]

def fn_part2 {F : FTy → Type} [FloatOps F] (main_arg1 : FVec F S16384x16384 .f32) (main_v28 : IVec S_ 1) (main_v33 : IVec S16384 1) : IVec S_ 1 :=
  let main_c_12 : IVec S_ 1 := constantI S_ 1 1#1
  let main_v34 : IVec S_ 1 := (fun x v => Host.reduce IntOp.andi x v reducesTo_S16384_S_d0 h_S_) main_v33 main_c_12
  let main_v35 : IVec S_ 1 := andi main_v28 main_v34
  let main_v36 : IVec S16384 32 := iotaInDim S16384 32 0
  let main_c_13 : IVec S_ 32 := constantI S_ 32 32#32
  let main_v37 : IVec S16384 32 := broadcastInDim S16384 ![] bcast_S_S16384 main_c_13
  let main_v38 : IVec S16384 32 := Host.divsi main_v36 main_v37
  let main_v39 : IVec S16384x1 32 := broadcastInDim S16384x1 ![0] bcast_S16384_S16384x1_0 main_v38
  let main_v40 : IVec S16384 32 := iotaInDim S16384 32 0
  let main_c_14 : IVec S_ 32 := constantI S_ 32 32#32
  let main_v41 : IVec S16384 32 := broadcastInDim S16384 ![] bcast_S_S16384 main_c_14
  let main_v42 : IVec S16384 32 := Host.divsi main_v40 main_v41
  let main_v43 : IVec S1x16384 32 := broadcastInDim S1x16384 ![1] bcast_S16384_S1x16384_1 main_v42
  let main_v44 : IVec S16384x16384 32 := broadcastInDim S16384x16384 ![0, 1] bcast_S16384x1_S16384x16384_0_1 main_v39
  let main_v45 : IVec S16384x16384 32 := broadcastInDim S16384x16384 ![0, 1] bcast_S1x16384_S16384x16384_0_1 main_v43
  let main_v46 : IVec S16384x16384 1 := cmpi .eq main_v44 main_v45
  let main_cst_15 : FVec F S_ .f32 := constant S_ .f32 0x00000000#32
  let main_v47 : FVec F S16384x16384 .f32 := broadcastInDim S16384x16384 ![] bcast_S_S16384x16384 main_cst_15
  let main_v48 : IVec S16384x16384 1 := cmpf .oeq main_arg1 main_v47
  let main_v49 : IVec S16384x16384 1 := ori main_v46 main_v48
  let main_c_16 : IVec S_ 1 := constantI S_ 1 1#1
  let main_v50 : IVec S_ 1 := (fun x v => Host.reduce IntOp.andi x v reducesTo_S16384x16384_S_d0_1 h_S_) main_v49 main_c_16
  let main_v51 : IVec S_ 1 := andi main_v35 main_v50
  main_v51

def fn_part1 {F : FTy → Type} [FloatOps F] (main_arg0 : IVec S16384 32) (main_arg1 : FVec F S16384x16384 .f32) (main_arg5 : FVec F S256x2 .f32) (main_arg6 : FVec F S2 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S256x2 .f32 := Host.absf main_arg5
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg0 main_v29
  let main_c_11 : IVec S_ 32 := constantI S_ 32 10000#32
  let main_v31 : IVec S16384 32 := broadcastInDim S16384 ![] bcast_S_S16384 main_c_11
  let main_v32 : IVec S16384 1 := cmpi .slt main_arg0 main_v31
  let main_v33 : IVec S16384 1 := andi main_v30 main_v32
  fn_part2 (F := F) main_arg1 main_v28 main_v33

def fn {F : FTy → Type} [FloatOps F] (main_arg0 : IVec S16384 32) (main_arg1 : FVec F S16384x16384 .f32) (main_arg2 : FVec F S10000x256 .f32) (main_arg3 : FVec F S3x256x256 .f32) (main_arg4 : FVec F S3x256 .f32) (main_arg5 : FVec F S256x2 .f32) (main_arg6 : FVec F S2 .f32) : IVec S_ 1 :=
  let main_v0 : FVec F S16384x16384 .f32 := Host.absf main_arg1
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg0 main_arg1 main_arg5 main_arg6 main_v13 main_v16
-- ==== Kernel.lean ====
abbrev S16384 : Shape := ⟨1, ![16384]⟩
abbrev S16384x16384 : Shape := ⟨2, ![16384, 16384]⟩
abbrev S10000x256 : Shape := ⟨2, ![10000, 256]⟩
abbrev S3x256x256 : Shape := ⟨3, ![3, 256, 256]⟩
abbrev S3x256 : Shape := ⟨2, ![3, 256]⟩
abbrev S256x2 : Shape := ⟨2, ![256, 2]⟩
abbrev S2 : Shape := ⟨1, ![2]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S3x1x256 : Shape := ⟨3, ![3, 1, 256]⟩
abbrev S512x256 : Shape := ⟨2, ![512, 256]⟩
abbrev S1024x1024 : Shape := ⟨2, ![1024, 1024]⟩
abbrev S1024x256 : Shape := ⟨2, ![1024, 256]⟩
abbrev S32x256 : Shape := ⟨2, ![32, 256]⟩
abbrev S1x1x256 : Shape := ⟨3, ![1, 1, 256]⟩
abbrev S1x256 : Shape := ⟨2, ![1, 256]⟩
abbrev S1x256x256 : Shape := ⟨3, ![1, 256, 256]⟩
abbrev S256x256 : Shape := ⟨2, ![256, 256]⟩
abbrev S32x32x256 : Shape := ⟨3, ![32, 32, 256]⟩
abbrev S512x2 : Shape := ⟨2, ![512, 2]⟩
abbrev S1x2 : Shape := ⟨2, ![1, 2]⟩

abbrev nBuf : Space → Nat
  | .hbm => 36
  | .vmem => 8
  | .smem => 0
  | _ => 0

abbrev bufTy : (tb : Table) → Fin (tcTables nBuf tb) → BufTy
  | .hbm, ⟨0, _⟩ => ⟨S16384, .i32⟩
  | .hbm, ⟨1, _⟩ => ⟨S16384x16384, .f32⟩
  | .hbm, ⟨2, _⟩ => ⟨S10000x256, .f32⟩
  | .hbm, ⟨3, _⟩ => ⟨S3x256x256, .f32⟩
  | .hbm, ⟨4, _⟩ => ⟨S3x256, .f32⟩
  | .hbm, ⟨5, _⟩ => ⟨S256x2, .f32⟩
  | .hbm, ⟨6, _⟩ => ⟨S2, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S1, .i32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S1x1, .i32⟩
  | .hbm, ⟨20, _⟩ => ⟨S16384x1, .i32⟩
  | .hbm, ⟨21, _⟩ => ⟨S16384x1, .i1⟩
  | .hbm, ⟨22, _⟩ => ⟨S16384x1, .i1⟩
  | .hbm, ⟨23, _⟩ => ⟨S_, .i1⟩
  | .hbm, ⟨24, _⟩ => ⟨S16384, .i1⟩
  | .hbm, ⟨25, _⟩ => ⟨S16384x256, .f32⟩
  | .hbm, ⟨26, _⟩ => ⟨S16384x256, .i1⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S3x1x256, .f32⟩
  | .hbm, ⟨31, _⟩ => ⟨S512x256, .f32⟩
  | .hbm, ⟨32, _⟩ => ⟨S512x2, .f32⟩
  | .hbm, ⟨33, _⟩ => ⟨S1x2, .f32⟩
  | .hbm, ⟨34, _⟩ => ⟨S512x2, .f32⟩
  | .hbm, ⟨35, _⟩ => ⟨S512x2, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S3x256x256, .f32⟩
  | .local _ .vmem, ⟨5, _⟩ => ⟨S3x1x256, .f32⟩
  | .local _ .vmem, ⟨6, _⟩ => ⟨S32x256, .f32⟩
  | .local _ .vmem, ⟨7, _⟩ => ⟨S32x256, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  ![arg0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x256_0 : S16384.BroadcastsInDim S16384x256 (![0] : Fin 1 → Fin S16384x256.rank)
  bcast_S_S16384x256 : S_.BroadcastsInDim S16384x256 (![] : Fin 0 → Fin S16384x256.rank)
  shapeCasts_S3x256_S3x1x256 : S3x256.ShapeCasts S3x1x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S3x1x256_S1x1x256_0_0_0 : ∀ a, (![0, 0, 0] : Fin 3 → Nat) a + S1x1x256.size a ≤ S3x1x256.size a
  h_S1x1x256 : 0 < S1x1x256.numel
  shapeCasts_S1x1x256_S1x256 : S1x1x256.ShapeCasts S1x256
  inb_S3x1x256_S1x1x256_1_0_0 : ∀ a, (![1, 0, 0] : Fin 3 → Nat) a + S1x1x256.size a ≤ S3x1x256.size a
  inb_S3x1x256_S1x1x256_2_0_0 : ∀ a, (![2, 0, 0] : Fin 3 → Nat) a + S1x1x256.size a ≤ S3x1x256.size a
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  broadcasts_S1x256_S1024x256 : S1x256.Broadcasts S1024x256
  inb_S3x256x256_S1x256x256_1_0_0 : ∀ a, (![1, 0, 0] : Fin 3 → Nat) a + S1x256x256.size a ≤ S3x256x256.size a
  inb_S3x256x256_S1x256x256_2_0_0 : ∀ a, (![2, 0, 0] : Fin 3 → Nat) a + S1x256x256.size a ≤ S3x256x256.size a
  shapeCasts_S1024x256_S32x32x256 : S1024x256.ShapeCasts S32x32x256
  reduces_S32x32x256_S32x256 : S32x32x256.Reduces [1] S32x256
  inb_S32x256_S32x256_0_0 : ∀ a, (![0, 0] : Fin 2 → Nat) a + S32x256.size a ≤ S32x256.size a
  h_S32x256 : 0 < S32x256.numel
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S10000x256_S16384x1_S16384x256_1_0_n_n_0_1_1256_wf : GatherDims.WF S10000x256 S16384x1 S16384x256 [1] [0] [] [0] [] 1 ![1, 256]
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  dot_S512x256_S256x2_S512x2_1_0_0_1_n_n_wf : DotDims.WF S512x256 S256x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x16384.size a
  hwx0_0 : ∀ i : grid0.Coords, EltTy.bits .f32 = 32 ∨ (Rect.block (s := S16384x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .f32 = 32 ∨ (Rect.block (s := S16384x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x256x256.size a
  hwx0_2 : ∀ i : grid0.Coords, EltTy.bits .f32 = 32 ∨ (Rect.block (s := S3x256x256) S3x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1x256.size a ≤ S3x1x256.size a
  hwx0_3 : ∀ i : grid0.Coords, EltTy.bits .f32 = 32 ∨ (Rect.block (s := S3x1x256) S3x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S512x256.size a
  hwx0_4 : ∀ i : grid0.Coords, EltTy.bits .f32 = 32 ∨ (Rect.block (s := S512x256) S32x256.size (cc0_transform_4 i) (hinb0_4 i)).WholeWords (EltTy.packing .f32)

variable [Facts₀]

def gather_S10000x256_S16384x1_S16384x256_1_0_n_n_0_1_1256 : GatherDims S10000x256 S16384x1 S16384x256 where
  offsetDims := [1]
  collapsedSliceDims := [0]
  operandBatchingDims := []
  startIndicesBatchingDims := []
  startIndexMap := [0]
  indexVectorDim := 1
  sliceSizes := ![1, 256]
  wf := gather_S10000x256_S16384x1_S16384x256_1_0_n_n_0_1_1256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384 : Shape := ⟨1, ![16384]⟩
abbrev S16384x16384 : Shape := ⟨2, ![16384, 16384]⟩
abbrev S10000x256 : Shape := ⟨2, ![10000, 256]⟩
abbrev S3x256x256 : Shape := ⟨3, ![3, 256, 256]⟩
abbrev S3x256 : Shape := ⟨2, ![3, 256]⟩
abbrev S256x2 : Shape := ⟨2, ![256, 2]⟩
abbrev S2 : Shape := ⟨1, ![2]⟩
abbrev S_ : Shape := ⟨0, ![]⟩
abbrev S16384x1 : Shape := ⟨2, ![16384, 1]⟩
abbrev S16384x256 : Shape := ⟨2, ![16384, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S512x32x256 : Shape := ⟨3, ![512, 32, 256]⟩
abbrev S512x256 : Shape := ⟨2, ![512, 256]⟩
abbrev S512x2 : Shape := ⟨2, ![512, 2]⟩
abbrev S1x2 : Shape := ⟨2, ![1, 2]⟩

abbrev nBuf : Space → Nat
  | .hbm => 62
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x16384, .f32⟩
  | .hbm, ⟨2, _⟩ => ⟨S10000x256, .f32⟩
  | .hbm, ⟨3, _⟩ => ⟨S3x256x256, .f32⟩
  | .hbm, ⟨4, _⟩ => ⟨S3x256, .f32⟩
  | .hbm, ⟨5, _⟩ => ⟨S256x2, .f32⟩
  | .hbm, ⟨6, _⟩ => ⟨S2, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x256, .f32⟩
  | .hbm, ⟨16, _⟩ => ⟨S1x256x256, .f32⟩
  | .hbm, ⟨17, _⟩ => ⟨S256x256, .f32⟩
  | .hbm, ⟨18, _⟩ => ⟨S16384x256, .f32⟩
  | .hbm, ⟨19, _⟩ => ⟨S1x256, .f32⟩
  | .hbm, ⟨20, _⟩ => ⟨S256, .f32⟩
  | .hbm, ⟨21, _⟩ => ⟨S1x256, .f32⟩
  | .hbm, ⟨22, _⟩ => ⟨S16384x256, .f32⟩
  | .hbm, ⟨23, _⟩ => ⟨S16384x256, .f32⟩
  | .hbm, ⟨24, _⟩ => ⟨S_, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S1x256x256, .f32⟩
  | .hbm, ⟨30, _⟩ => ⟨S256x256, .f32⟩
  | .hbm, ⟨31, _⟩ => ⟨S16384x256, .f32⟩
  | .hbm, ⟨32, _⟩ => ⟨S1x256, .f32⟩
  | .hbm, ⟨33, _⟩ => ⟨S256, .f32⟩
  | .hbm, ⟨34, _⟩ => ⟨S1x256, .f32⟩
  | .hbm, ⟨35, _⟩ => ⟨S16384x256, .f32⟩
  | .hbm, ⟨36, _⟩ => ⟨S16384x256, .f32⟩
  | .hbm, ⟨37, _⟩ => ⟨S_, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S1x256x256, .f32⟩
  | .hbm, ⟨43, _⟩ => ⟨S256x256, .f32⟩
  | .hbm, ⟨44, _⟩ => ⟨S16384x256, .f32⟩
  | .hbm, ⟨45, _⟩ => ⟨S1x256, .f32⟩
  | .hbm, ⟨46, _⟩ => ⟨S256, .f32⟩
  | .hbm, ⟨47, _⟩ => ⟨S1x256, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S16384x256, .f32⟩
  | .hbm, ⟨54, _⟩ => ⟨S16384x256, .f32⟩
  | .hbm, ⟨55, _⟩ => ⟨S512x32x256, .f32⟩
  | .hbm, ⟨56, _⟩ => ⟨S_, .f32⟩
  | .hbm, ⟨57, _⟩ => ⟨S512x256, .f32⟩
  | .hbm, ⟨58, _⟩ => ⟨S512x2, .f32⟩
  | .hbm, ⟨59, _⟩ => ⟨S1x2, .f32⟩
  | .hbm, ⟨60, _⟩ => ⟨S512x2, .f32⟩
  | .hbm, ⟨61, _⟩ => ⟨S512x2, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call1_cst : Ref sig .tc := ⟨.hbm, 37, rfl⟩
abbrev main_call1_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call2_cst : Ref sig .tc := ⟨.hbm, 50, rfl⟩
abbrev main_call2_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  shapeCasts_S16384x256_S512x32x256 : S16384x256.ShapeCasts S512x32x256
  reducesTo_S512x32x256_S512x256_d1 : S512x32x256.ReducesTo [1] S512x256
  h_S_ : 0 < S_.numel
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S10000x256_S16384x1_S16384x256_1_0_n_n_0_1_1256_wf : GatherDims.WF S10000x256 S16384x1 S16384x256 [1] [0] [] [0] [] 1 ![1, 256]
  dot_S16384x256_S256x256_S16384x256_1_0_0_1_n_n_wf : DotDims.WF S16384x256 S256x256 S16384x256 [1] [0] [0] [1] [] []
  dot_S16384x16384_S16384x256_S16384x256_1_0_0_1_n_n_wf : DotDims.WF S16384x16384 S16384x256 S16384x256 [1] [0] [0] [1] [] []
  dot_S512x256_S256x2_S512x2_1_0_0_1_n_n_wf : DotDims.WF S512x256 S256x2 S512x2 [1] [0] [0] [1] [] []

variable [Facts₀]

def gather_S10000x256_S16384x1_S16384x256_1_0_n_n_0_1_1256 : GatherDims S10000x256 S16384x1 S16384x256 where
  offsetDims := [1]
  collapsedSliceDims := [0]
  operandBatchingDims := []
  startIndicesBatchingDims := []
  startIndexMap := [0]
  indexVectorDim := 1
  sliceSizes := ![1, 256]
  wf := gather_S10000x256_S16384x1_S16384x256_1_0_n_n_0_1_1256_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf

class Facts : Prop extends Facts₀ where

variable [Facts]
-- ==== Proof.Spec.lean ====
/-
  A molecular graph network on equal-size molecules, as mathematics over the extended reals.

  Atoms carry 256 features. One layer sends features `x` to `x + A · relu (x · W + b)`, where `A` is the
  atom-by-atom adjacency matrix; three layers are applied in a row, the features of the 32 atoms of each
  molecule are summed, and a last affine map reads out two numbers per molecule.

  When `A` vanishes between atoms of different molecules, the rows of a tile made of whole molecules only
  ever see the columns of that same tile: the network restricted to a tile is the network of the tile's
  diagonal block. That is the law proved here (`net_restrict`, `tile_pool`); sums over the extended reals are
  commutative and `0 · x = 0` holds there without any finiteness, so no entry needs to be a real number.
-/
import Idealize.ShloMosaic.PureOps.Ideal

noncomputable section

namespace Cert.MolGnn

open scoped BigOperators

variable {n n' : Nat}

/-- Hidden features of atom `i`: an affine map of its features followed by `max · 0`. -/
def hidden (W : Fin 256 → Fin 256 → EReal) (b : Fin 256 → EReal) (x : Fin n → Fin 256 → EReal)
    (i : Fin n) (c : Fin 256) : EReal :=
  max ((∑ k : Fin 256, x i k * W k c) + b c) 0

/-- One layer: each atom adds to its features the adjacency-weighted sum of every atom's hidden features. -/
def layer (A : Fin n → Fin n → EReal) (W : Fin 256 → Fin 256 → EReal) (b : Fin 256 → EReal)
    (x : Fin n → Fin 256 → EReal) (i : Fin n) (c : Fin 256) : EReal :=
  x i c + ∑ k : Fin n, A i k * hidden W b x k c

/-- The three layers, each with its own weights and bias. -/
def net (A : Fin n → Fin n → EReal) (W : Fin 3 → Fin 256 → Fin 256 → EReal) (b : Fin 3 → Fin 256 → EReal)
    (x : Fin n → Fin 256 → EReal) : Fin n → Fin 256 → EReal :=
  layer A (W 2) (b 2) (layer A (W 1) (b 1) (layer A (W 0) (b 0) x))

/-- The sum of the features over the 32 atoms `r m a` of molecule `m`. -/
def pool {g : Nat} (r : Fin g → Fin 32 → Fin n) (x : Fin n → Fin 256 → EReal) (m : Fin g) (c : Fin 256) : EReal :=
  ∑ a : Fin 32, x (r m a) c

/-- The read-out: an affine map from the 256 pooled features to two properties. -/
def readout {g : Nat} (Wp : Fin 256 → Fin 2 → EReal) (bp : Fin 2 → EReal) (y : Fin g → Fin 256 → EReal)
    (m : Fin g) (o : Fin 2) : EReal :=
  (∑ c : Fin 256, y m c * Wp c o) + bp o

/-- A layer restricted to the rows `e i'`: if row `e i'` of `A` vanishes outside the image of `e`, the sum
    over all atoms is the sum over the image, which is the layer of the sub-matrix on the restricted features. -/
theorem layer_restrict (e : Fin n' → Fin n) (he : Function.Injective e) (A : Fin n → Fin n → EReal)
    (hA : ∀ i' k, k ∉ Set.range e → A (e i') k = 0) (W : Fin 256 → Fin 256 → EReal) (b : Fin 256 → EReal)
    (x : Fin n → Fin 256 → EReal) :
    (fun i' => layer A W b x (e i')) = layer (fun i k => A (e i) (e k)) W b (fun i => x (e i)) := by
  funext i' c
  unfold layer
  refine congrArg (x (e i') c + ·) ?_
  symm
  refine Fintype.sum_of_injective e he _ _ (fun k hk => ?_) (fun k' => rfl)
  rw [hA i' k hk, zero_mul]

/-- The same through the three layers. -/
theorem net_restrict (e : Fin n' → Fin n) (he : Function.Injective e) (A : Fin n → Fin n → EReal)
    (hA : ∀ i' k, k ∉ Set.range e → A (e i') k = 0) (W : Fin 3 → Fin 256 → Fin 256 → EReal)
    (b : Fin 3 → Fin 256 → EReal) (x : Fin n → Fin 256 → EReal) :
    (fun i' => net A W b x (e i')) = net (fun i k => A (e i) (e k)) W b (fun i => x (e i)) := by
  unfold net
  rw [layer_restrict e he A hA, layer_restrict e he A hA, layer_restrict e he A hA]

/-! ## Tiles of 32 whole molecules among 512 molecules of 32 atoms -/

/-- Row `i'` of tile `t` is atom `1024 t + i'`. -/
def tileRow (t : Fin 16) (i' : Fin 1024) : Fin 16384 := ⟨1024 * t.val + i'.val, by omega⟩
/-- Atom `a` of molecule `m` is atom `32 m + a`. -/
def atomRow (m : Fin 512) (a : Fin 32) : Fin 16384 := ⟨32 * m.val + a.val, by omega⟩
/-- Inside a tile: atom `a` of the tile's molecule `m'` is the tile's row `32 m' + a`. -/
def atomRowT (m' : Fin 32) (a : Fin 32) : Fin 1024 := ⟨32 * m'.val + a.val, by omega⟩
/-- Molecule `m'` of tile `t` is molecule `32 t + m'`. -/
def tileMol (t : Fin 16) (m' : Fin 32) : Fin 512 := ⟨32 * t.val + m'.val, by omega⟩

theorem tileRow_injective (t : Fin 16) : Function.Injective (tileRow t) := by
  intro a b h
  have := congrArg Fin.val h
  simp only [tileRow] at this
  exact Fin.ext (by omega)

theorem tileRow_atomRowT (t : Fin 16) (m' : Fin 32) (a : Fin 32) :
    tileRow t (atomRowT m' a) = atomRow (tileMol t m') a := by
  apply Fin.ext
  simp only [tileRow, atomRowT, atomRow, tileMol]
  omega

/-- The adjacency matrix joins atoms of one molecule only. -/
def BlockDiag (A : Fin 16384 → Fin 16384 → EReal) : Prop :=
  ∀ i j : Fin 16384, i.val / 32 ≠ j.val / 32 → A i j = 0

/-- A row of a tile vanishes outside the tile's own columns: a tile is made of whole molecules. -/
theorem BlockDiag.tile {A : Fin 16384 → Fin 16384 → EReal} (hA : BlockDiag A) (t : Fin 16) :
    ∀ i' k, k ∉ Set.range (tileRow t) → A (tileRow t i') k = 0 := by
  intro i' k hk
  apply hA
  intro h
  apply hk
  simp only [tileRow] at h
  have hk1 : 1024 * t.val ≤ k.val := by omega
  have hk2 : k.val < 1024 * t.val + 1024 := by omega
  exact ⟨⟨k.val - 1024 * t.val, by omega⟩, Fin.ext (by simp only [tileRow]; omega)⟩

/-- THE LAW: pooling the tile's own network over the tile's molecule `m'` is pooling the whole network over
    molecule `32 t + m'`. -/
theorem tile_pool {A : Fin 16384 → Fin 16384 → EReal} (hA : BlockDiag A) (W : Fin 3 → Fin 256 → Fin 256 → EReal)
    (b : Fin 3 → Fin 256 → EReal) (x : Fin 16384 → Fin 256 → EReal) (t : Fin 16) (m' : Fin 32) (c : Fin 256) :
    pool atomRowT (net (fun i k => A (tileRow t i) (tileRow t k)) W b (fun i => x (tileRow t i))) m' c
      = pool atomRow (net A W b x) (tileMol t m') c := by
  rw [← net_restrict (tileRow t) (tileRow_injective t) A (hA.tile t)]
  unfold pool
  refine Finset.sum_congr rfl fun a _ => ?_
  show net A W b x (tileRow t (atomRowT m' a)) c = _
  rw [tileRow_atomRowT]

end Cert.MolGnn

end
-- ==== Proof.Curry.lean ====
/-
  An array of literal shape read as a family indexed by its coordinates, one `Fin` per axis:
  entry `(i, j)` of a matrix `x` is `cur2 x i j`.
-/
import Idealize.ShloMosaic.Lib.ValueIdx

namespace Cert.MolGnn

open Idealize.ShloMosaic Idealize.ShloMosaic.ValueIdx

/-- A vector by its one coordinate. -/
def cur1 {α : Type} {a : Nat} (x : (⟨1, ![a]⟩ : Shape).Idx → α) : Fin a → α := fun i => x (ix1 i)
/-- A matrix by row and column. -/
def cur2 {α : Type} {a b : Nat} (x : (⟨2, ![a, b]⟩ : Shape).Idx → α) : Fin a → Fin b → α := fun i j => x (ix2 i j)
/-- A stack of matrices by member, row and column. -/
def cur3 {α : Type} {a b c : Nat} (x : (⟨3, ![a, b, c]⟩ : Shape).Idx → α) : Fin a → Fin b → Fin c → α :=
  fun i j k => x (ix3 i j k)

end Cert.MolGnn
-- ==== Proof.PreFacts.lean ====
/-
  What the precondition says about the two inputs the equivalence leans on: every atom's fingerprint index
  lies in the embedding table, and the adjacency matrix joins atoms of one molecule only.
-/
import proofs.«404791_j14422500180655_3_alg».proof.Pre_finite_inputs
import proofs.«404791_j14422500180655_3_alg».proof.Proof.Gen.Pre_finite_inputs
import proofs.«404791_j14422500180655_3_alg».proof.Proof.Spec
import proofs.«404791_j14422500180655_3_alg».proof.Proof.Curry
import Idealize.ShloMosaic.Lib.StableHlo.Predicate
import Idealize.ShloMosaic.Lib.ReduceAll
import Idealize.ShloMosaic.Lib.ValueIdx
import Idealize.ShloMosaic.PureOps.Ideal.Laws

noncomputable section

namespace Cert.MolGnn

open Idealize.ShloMosaic Idealize.ShloMosaic.ValueIdx Cert.Pre_finite_inputs

/-- The scalar shape has a single index. -/
private instance subsingleton_scalar_idx : Subsingleton S_.Idx := ⟨fun a b => funext fun d => d.elim0⟩

/-- A signed "greater or equal" that came out true orders the two words' signed values. -/
private theorem sge_iff_toInt (a b : BitVec 32) : IntOp.cmpi .sge a b = 1#1 ↔ b.toInt ≤ a.toInt := by
  unfold IntOp.cmpi
  show BitVec.ofBool (b.sle a) = 1#1 ↔ _
  rw [StableHlo.Predicate.ofBool_eq_one_iff, BitVec.sle, decide_eq_true_eq]

/-- A signed "less than" that came out true orders the two words' signed values strictly. -/
private theorem slt_iff_toInt (a b : BitVec 32) : IntOp.cmpi .slt a b = 1#1 ↔ a.toInt < b.toInt := by
  unfold IntOp.cmpi
  show BitVec.ofBool (a.slt b) = 1#1 ↔ _
  rw [StableHlo.Predicate.ofBool_eq_one_iff, BitVec.slt, decide_eq_true_eq]

/-- A word below 2³¹ divided (signed) by 32 meets no corner of the division: its value is the value divided by 32. -/
private theorem divsi_32 (u : ArithUnit) (w : BitVec 32) (hw : w.toNat < 2 ^ 31) :
    (IntOp.divsi u w 32#32).toNat = w.toNat / 32 := by
  have hcorner : ¬ IntOp.SDivCorner w 32#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (32#32 : BitVec 32).msb = false from by decide, BitVec.udiv_eq,
    BitVec.toNat_udiv, BitVec.toNat_ofNat]

/-- Position (i, j) of a rectangular array: the two spellings of that index are the same function of the axis. -/
private theorem ix2_eq_ij {n m : Nat} (i : Fin n) (j : Fin m) : ix2 i j = StableHlo.Predicate.ij i j := by
  funext d; match d with | ⟨0, _⟩ => rfl | ⟨1, _⟩ => rfl

/-- The molecule number of atom i as the predicate computes it: the word i divided by 32, whose value is i / 32. -/
private theorem mol_word (i : Fin 16384) :
    (IntOp.divsi .host (BitVec.ofNat 32 i.val) 32#32).toNat = i.val / 32 := by
  have hi : (BitVec.ofNat 32 i.val).toNat = i.val := by
    rw [BitVec.toNat_ofNat]; have := i.isLt; omega
  rw [divsi_32 _ _ (by rw [hi]; have := i.isLt; omega), hi]

/-- Under the precondition every atom index is a row of the 10000-row embedding table. -/
theorem pre_atoms (a0 : IVec S16384 32) (a1 : FVec Ideal S16384x16384 .f32) (a2 : FVec Ideal S10000x256 .f32)
    (a3 : FVec Ideal S3x256x256 .f32) (a4 : FVec Ideal S3x256 .f32) (a5 : FVec Ideal S256x2 .f32) (a6 : FVec Ideal S2 .f32)
    (h : Cert.Pre_finite_inputs.fn (F := Ideal) a0 a1 a2 a3 a4 a5 a6 = (fun _ => 1#1)) (p : Fin 16384) :
    0 ≤ (a0 (ix1 p)).toInt ∧ (a0 (ix1 p)).toInt < 10000 := by
  -- the predicate is a conjunction of eight "for all" tests; the seventh is the range test on the atom indices
  have h0 := congrFun h ix0
  dsimp only [fn, fn_part1, fn_part2] at h0
  obtain ⟨h35, -⟩ := IntOp.andi_eq_one.1 h0
  obtain ⟨-, h34⟩ := IntOp.andi_eq_one.1 h35
  -- read at atom p: both compares are true there
  have hp := Host.reduce_andi_all _ _ _ _ _ h34 (ix1 p)
  obtain ⟨hge, hlt⟩ := IntOp.andi_eq_one.1 hp
  have hge' : IntOp.cmpi .sge (a0 (ix1 p)) 0#32 = 1#1 := hge
  have hlt' : IntOp.cmpi .slt (a0 (ix1 p)) 10000#32 = 1#1 := hlt
  have z : (0#32 : BitVec 32).toInt = 0 := by decide
  have t : (10000#32 : BitVec 32).toInt = 10000 := by decide
  exact ⟨z ▸ (sge_iff_toInt _ _).1 hge', t ▸ (slt_iff_toInt _ _).1 hlt'⟩

/-- Under the precondition the adjacency matrix vanishes between atoms of different molecules. -/
theorem pre_blockDiag (a0 : IVec S16384 32) (a1 : FVec Ideal S16384x16384 .f32) (a2 : FVec Ideal S10000x256 .f32)
    (a3 : FVec Ideal S3x256x256 .f32) (a4 : FVec Ideal S3x256 .f32) (a5 : FVec Ideal S256x2 .f32) (a6 : FVec Ideal S2 .f32)
    (h : Cert.Pre_finite_inputs.fn (F := Ideal) a0 a1 a2 a3 a4 a5 a6 = (fun _ => 1#1)) :
    BlockDiag (cur2 a1) := by
  intro i j hne
  -- the last of the eight "for all" tests: at every (i, j), same molecule number or a zero entry
  have h0 := congrFun h ix0
  dsimp only [fn, fn_part1, fn_part2] at h0
  obtain ⟨-, h50⟩ := IntOp.andi_eq_one.1 h0
  have hij := Host.reduce_andi_all _ _ _ _ _ h50 (ix2 i j)
  rcases IntOp.ori_eq_one.1 hij with heq | hz
  · -- the two molecule numbers are equal words, so i / 32 = j / 32: excluded
    exfalso
    have e := (StableHlo.Predicate.cmpi_eq_iff (w := 32)).1 heq
    rw [ix2_eq_ij] at e
    have e' := (StableHlo.Predicate.bcast_rows _ _ _ i j).symm.trans
      (e.trans (StableHlo.Predicate.bcast_cols _ _ _ i j))
    have e'' : IntOp.divsi .host (BitVec.ofNat 32 i.val) 32#32 = IntOp.divsi .host (BitVec.ofNat 32 j.val) 32#32 := e'
    have hv := congrArg BitVec.toNat e''
    rw [mol_word i, mol_word j] at hv
    exact hne hv
  · -- the float compare against the constant zero is true: the entry is the extended real 0
    show a1 (ix2 i j) = 0
    have hz' : Ideal.cmp .oeq (a1 (ix2 i j)) (Ideal.ofBits .f32 0x00000000#32) = 1#1 := hz
    rw [Ideal.ofBits_zero_f32] at hz'
    unfold Ideal.cmp at hz'
    exact of_decide_eq_true ((StableHlo.Predicate.ofBool_eq_one_iff _).1 hz')

end Cert.MolGnn

end
-- ==== Proof.KernelTile.lean ====
/-
  What one grid point of the fused kernel leaves in its output block: the per-molecule sums of the
  three-layer network of the tile's own adjacency block on the tile's own atoms.
-/
import proofs.«404791_j14422500180655_3_alg».proof.Proof.Gen.KernelIdeal
import proofs.«404791_j14422500180655_3_alg».proof.Proof.Gen.KernelIdeal.Frame
import proofs.«404791_j14422500180655_3_alg».proof.Proof.Spec
import proofs.«404791_j14422500180655_3_alg».proof.Proof.Curry
import Idealize.ShloMosaic.Lib.Pipeline.Value
import Idealize.ShloMosaic.Lib.ValueIdx
import Idealize.ShloMosaic.Lib.ValueLayout
import Idealize.ShloMosaic.PureOps.Ideal.Laws

noncomputable section

namespace Cert.MolGnn

open Idealize.ShloMosaic Idealize.ShloMosaic.ValueIdx Cert.KernelIdeal Cert.KernelIdeal.Gen

open scoped BigOperators

/-! ## The two matrix products at explicit coordinates -/

private theorem lhsW_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
private theorem lhsW_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
private theorem rhsW_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
private theorem rhsW_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry (i, c) of features · weights is the sum over the 256 features. -/
private theorem mulW_apply (X : FVec Ideal S1024x256 .bf16) (W : FVec Ideal S256x256 .bf16) (i : Fin 1024) (c : Fin 256) :
    matmul dot_S1024x256_S256x256_S1024x256_1_0_0_1_n_n none X W (constant (F := Ideal) S1024x256 .f32 0x00000000#32) (ix2 i c)
      = ∑ k : Fin 256, X (ix2 i k) * W (ix2 k c) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 i c) ((contrEquiv1 dot_S1024x256_S256x256_S1024x256_1_0_0_1_n_n 256 rfl rfl).symm k) = ix2 i k := funext fun a => Fin.ext (by
    match a with
    | ⟨0, _⟩ => exact lhsW_0 _ _
    | ⟨1, _⟩ => exact (lhsW_1 _ _).trans hk)
  have er : dot_S1024x256_S256x256_S1024x256_1_0_0_1_n_n.rhsIdx (ix2 i c) ((contrEquiv1 dot_S1024x256_S256x256_S1024x256_1_0_0_1_n_n 256 rfl rfl).symm k) = ix2 k c := funext fun a => Fin.ext (by
    match a with
    | ⟨0, _⟩ => exact (rhsW_0 _ _).trans hk
    | ⟨1, _⟩ => exact rhsW_1 _ _)
  rw [el, er]

private theorem lhsA_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
private theorem lhsA_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
private theorem rhsA_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
private theorem rhsA_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- Entry (i, c) of adjacency · hidden features is the sum over the tile's 1024 atoms. -/
private theorem mulA_apply (A : FVec Ideal S1024x1024 .bf16) (H : FVec Ideal S1024x256 .bf16) (i : Fin 1024) (c : Fin 256) :
    matmul dot_S1024x1024_S1024x256_S1024x256_1_0_0_1_n_n none A H (constant (F := Ideal) S1024x256 .f32 0x00000000#32) (ix2 i c)
      = ∑ k : Fin 1024, A (ix2 i k) * H (ix2 k c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 i c) ((contrEquiv1 dot_S1024x1024_S1024x256_S1024x256_1_0_0_1_n_n 1024 rfl rfl).symm k) = ix2 i k := funext fun a => Fin.ext (by
    match a with
    | ⟨0, _⟩ => exact lhsA_0 _ _
    | ⟨1, _⟩ => exact (lhsA_1 _ _).trans hk)
  have er : dot_S1024x1024_S1024x256_S1024x256_1_0_0_1_n_n.rhsIdx (ix2 i c) ((contrEquiv1 dot_S1024x1024_S1024x256_S1024x256_1_0_0_1_n_n 1024 rfl rfl).symm k) = ix2 k c := funext fun a => Fin.ext (by
    match a with
    | ⟨0, _⟩ => exact (rhsA_0 _ _).trans hk
    | ⟨1, _⟩ => exact rhsA_1 _ _)
  rw [el, er]

/-! ## One layer at explicit coordinates -/

/-- The layer as the body computes it: from the features `x`, the affine map by `Wl` and the bias row `bl`, the
    maximum with zero, the product by the adjacency tile `A`, added to `x`. The changes of format are the identity
    on extended reals, and the zero word denotes zero. -/
private theorem layer_apply (A : FVec Ideal S1024x1024 .bf16) (x : FVec Ideal S1024x256 .f32) (Wl : FVec Ideal S256x256 .bf16)
    (bl : FVec Ideal S1x256 .f32) (i : Fin 1024) (c : Fin 256) :
    addf x (matmul dot_S1024x1024_S1024x256_S1024x256_1_0_0_1_n_n none A
        (truncf .bf16 (maximumf (addf (matmul dot_S1024x256_S256x256_S1024x256_1_0_0_1_n_n none (truncf .bf16 x bitsLt_bf16_f32) Wl
              (constant (F := Ideal) S1024x256 .f32 0x00000000#32))
            (broadcastTo S1024x256 bl broadcasts_S1x256_S1024x256))
          (broadcast S1024x256 (Scalar.ofBits (F := Ideal) .f32 0x00000000#32))) bitsLt_bf16_f32)
        (constant (F := Ideal) S1024x256 .f32 0x00000000#32)) (ix2 i c)
      = layer (cur2 A) (cur2 Wl) (fun k => bl (ix2 0 k)) (cur2 x) i c := by
  rw [addf_apply, mulA_apply]
  unfold layer
  refine congrArg (x (ix2 i c) + ·) (Finset.sum_congr rfl fun k _ => ?_)
  refine congrArg (A (ix2 i k) * ·) ?_
  rw [truncf_apply, maximumf_apply, addf_apply, mulW_apply, broadcastTo_1b_ab_apply, broadcast_apply]
  unfold hidden
  show max _ (Ideal.ofBits .f32 0x00000000#32) = _
  rw [Ideal.ofBits_zero_f32]
  rfl

/-- The same as an equation of matrices. -/
private theorem layer_eq (A : FVec Ideal S1024x1024 .bf16) (x : FVec Ideal S1024x256 .f32) (Wl : FVec Ideal S256x256 .bf16)
    (bl : FVec Ideal S1x256 .f32) :
    cur2 (addf x (matmul dot_S1024x1024_S1024x256_S1024x256_1_0_0_1_n_n none A
        (truncf .bf16 (maximumf (addf (matmul dot_S1024x256_S256x256_S1024x256_1_0_0_1_n_n none (truncf .bf16 x bitsLt_bf16_f32) Wl
              (constant (F := Ideal) S1024x256 .f32 0x00000000#32))
            (broadcastTo S1024x256 bl broadcasts_S1x256_S1024x256))
          (broadcast S1024x256 (Scalar.ofBits (F := Ideal) .f32 0x00000000#32))) bitsLt_bf16_f32)
        (constant (F := Ideal) S1024x256 .f32 0x00000000#32)))
      = layer (cur2 A) (cur2 Wl) (fun k => bl (ix2 0 k)) (cur2 x) :=
  funext fun i => funext fun c => layer_apply A x Wl bl i c

/-! ## The loaded weights and bias rows -/

/-- A loaded member of the weight stack, its unit axis cast away, is that member as a matrix. -/
private theorem weight_eq (W : Vec Ideal S1x256x256 .f32) :
    cur2 (truncf .bf16 (shapeCast S256x256 W shapeCasts_S1x256x256_S256x256) bitsLt_bf16_f32 : FVec Ideal S256x256 .bf16)
      = fun k c => W (ix3 0 k c) :=
  funext fun k => funext fun c => shapeCast_1ab_ab_apply W shapeCasts_S1x256x256_S256x256 k c

/-- A loaded bias row, its leading unit axis cast away, is that row. -/
private theorem bias_eq (b : Vec Ideal S1x1x256 .f32) :
    (fun k : Fin 256 => (shapeCast S1x256 b shapeCasts_S1x1x256_S1x256 : FVec Ideal S1x256 .f32) (ix2 0 k))
      = fun k => b (ix3 0 0 k) :=
  funext fun k => shapeCast_1ab_ab_apply b shapeCasts_S1x1x256_S1x256 0 k

/-- Member `l` of the weight stack through its rectangle. -/
private theorem ld_weight (x2 : Vec Ideal S3x256x256 .f32) (l : Fin 3) (inb) (k c : Fin 256) :
    View.ld x2 (Rect.unit (s := S3x256x256) ![l.val, 0, 0] S1x256x256.size inb) (ix3 (0 : Fin 1) k c) = x2 (ix3 l k c) := by
  show x2 _ = x2 _
  refine congrArg x2 (funext fun a => Fin.ext ?_)
  match a with
  | ⟨0, _⟩ => show l.val + 1 * 0 = l.val; omega
  | ⟨1, _⟩ => show 0 + 1 * k.val = k.val; omega
  | ⟨2, _⟩ => show 0 + 1 * c.val = c.val; omega

/-- Row `l` of the bias block through its rectangle. -/
private theorem ld_bias (x3 : Vec Ideal S3x1x256 .f32) (l : Fin 3) (inb) (k : Fin 256) :
    View.ld x3 (Rect.unit (s := S3x1x256) ![l.val, 0, 0] S1x1x256.size inb) (ix3 (0 : Fin 1) (0 : Fin 1) k) = x3 (ix3 l 0 k) := by
  show x3 _ = x3 _
  refine congrArg x3 (funext fun a => Fin.ext ?_)
  match a with
  | ⟨0, _⟩ => show l.val + 1 * 0 = l.val; omega
  | ⟨1, _⟩ => show 0 + 1 * 0 = 0; omega
  | ⟨2, _⟩ => show 0 + 1 * k.val = k.val; omega

/-! ## The sum over a molecule's atoms -/

/-- Rows cast to (molecule, atom), then summed over the atoms: the pool of the matrix. -/
private theorem pool_apply (X : FVec Ideal S1024x256 .f32) (hacc : (0x00000000#32 : BitVec 32) = 0x00000000#32)
    (m' : Fin 32) (c : Fin 256) :
    multiReduction (F := Ideal) .add [1] S32x256 (shapeCast S32x32x256 X shapeCasts_S1024x256_S32x32x256) 0x00000000#32
        reduces_S32x32x256_S32x256 (.inl rfl) hacc (ix2 m' c)
      = pool atomRowT (cur2 X) m' c := by
  refine (Ideal.multiReduction_add_single (shapeCast S32x32x256 X shapeCasts_S1024x256_S32x32x256) 0x00000000#32
    reduces_S32x32x256_S32x256 (.inl rfl) hacc (ix2 m' c)).trans ?_
  unfold pool
  refine Finset.sum_congr rfl fun a _ => ?_
  refine shapeCast_apply X shapeCasts_S1024x256_S32x32x256 _ (ix2 (atomRowT m' a) c) ?_
  rw [Shape.rowMajor_val_three, Shape.rowMajor_val_two]
  show (32 * m'.val + a.val) * 256 + c.val = (m'.val * 32 + a.val) * 256 + c.val
  omega

/-! ## The payloads -/

/-- The last payload: the third layer on the features `X` it is handed, then the sums over each molecule's atoms. -/
private theorem pay1_apply (A : FVec Ideal S1024x1024 .bf16) (b2 : FVec Ideal S1x256 .f32) (X : FVec Ideal S1024x256 .f32)
    (W2 : Vec Ideal S1x256x256 .f32) (m' : Fin 32) (c : Fin 256) :
    k0_pay1 (F := Ideal) A b2 X W2 (ix2 m' c)
      = pool atomRowT (layer (cur2 A) (fun k c => W2 (ix3 0 k c)) (fun k => b2 (ix2 0 k)) (cur2 X)) m' c := by
  unfold k0_pay1
  refine (pool_apply _ rfl m' c).trans ?_
  rw [layer_eq, weight_eq]

/-- The features after the first two layers. -/
private theorem pay4_eq (v0 : Vec Ideal S1024x1024 .f32) (v2 : Vec Ideal S1024x256 .f32) (v4 v6 : Vec Ideal S1x1x256 .f32)
    (v10 v22 : Vec Ideal S1x256x256 .f32) :
    cur2 (k0_pay4 (F := Ideal) v0 v2 v4 v6 v10 v22)
      = layer (cur2 v0) (fun k c => v22 (ix3 0 k c)) (fun k => v6 (ix3 0 0 k))
          (layer (cur2 v0) (fun k c => v10 (ix3 0 k c)) (fun k => v4 (ix3 0 0 k)) (cur2 v2)) := by
  unfold k0_pay4 k0_pay2
  rw [layer_eq, layer_eq, weight_eq, weight_eq, bias_eq, bias_eq, shapeCast_self]
  rfl

/-- The zero offsets, however spelt. -/
private theorem hz2 : (![0, 0] : Fin 2 → Nat) = fun _ => 0 := funext fun a => by
  match a with
  | ⟨0, _⟩ => rfl
  | ⟨1, _⟩ => rfl

/-- The body's output block at (molecule `m'` of the tile, feature `c`), from the four input blocks: the adjacency
    tile `x0`, the tile's atom features `x1`, the three weight matrices `x2` and the three bias rows `x3`. -/
theorem tile_value (x0 : Vec Ideal S1024x1024 .f32) (x1 : Vec Ideal S1024x256 .f32) (x2 : Vec Ideal S3x256x256 .f32)
    (x3 : Vec Ideal S3x1x256 .f32) (m' : Fin 32) (c : Fin 256) :
    out0_4 (F := Ideal) x0 x1 x2 x3 (ix2 m' c)
      = pool atomRowT (net (cur2 x0) (cur3 x2) (fun l k => x3 (ix3 l 0 k)) (cur2 x1)) m' c := by
  unfold out0_4
  rw [View.canon_unit_zero hz2]
  refine (pay1_apply _ _ _ _ m' c).trans ?_
  rw [pay4_eq]
  simp only [View.ld_unit_zero (S := S1024x1024) hz2, View.ld_unit_zero (S := S1024x256) hz2]
  have hA : cur2 (k0_pay2 (F := Ideal) x0) = cur2 x0 := rfl
  have hW0 : (fun (k c : Fin 256) => View.ld x2 r0_5 (ix3 (0 : Fin 1) k c)) = cur3 x2 0 :=
    funext fun k => funext fun c => ld_weight x2 0 _ k c
  have hW1 : (fun (k c : Fin 256) => View.ld x2 r0_6 (ix3 (0 : Fin 1) k c)) = cur3 x2 1 :=
    funext fun k => funext fun c => ld_weight x2 1 _ k c
  have hW2 : (fun (k c : Fin 256) => View.ld x2 r0_7 (ix3 (0 : Fin 1) k c)) = cur3 x2 2 :=
    funext fun k => funext fun c => ld_weight x2 2 _ k c
  have hb0 : (fun k : Fin 256 => View.ld x3 r0_2 (ix3 (0 : Fin 1) (0 : Fin 1) k)) = fun k => x3 (ix3 0 0 k) :=
    funext fun k => ld_bias x3 0 _ k
  have hb1 : (fun k : Fin 256 => View.ld x3 r0_3 (ix3 (0 : Fin 1) (0 : Fin 1) k)) = fun k => x3 (ix3 1 0 k) :=
    funext fun k => ld_bias x3 1 _ k
  have hb2 : (fun k : Fin 256 => k0_pay3 (F := Ideal) (View.ld x3 r0_4) (ix2 0 k)) = fun k => x3 (ix3 2 0 k) := by
    unfold k0_pay3
    rw [bias_eq]
    exact funext fun k => ld_bias x3 2 _ k
  rw [hA, hW0, hW1, hW2, hb0, hb1, hb2]
  rfl

end Cert.MolGnn

end
-- ==== Proof.KernelPrefix.lean ====
/-
  What the fused kernel's grid finds in the two arrays the host computes before it: the looked-up atom
  embeddings and the bias rows laid out one per layer.

  The lookup wraps a negative index by the table's height, gathers the rows, and replaces the row of
  any atom whose wrapped index is still outside the table by a filler. When every atom index is a
  row of the table nothing is wrapped and nothing is replaced: the array is the gathered rows.
-/
import proofs.«404791_j14422500180655_3_alg».proof.Proof.Gen.KernelIdeal.Frame
import proofs.«404791_j14422500180655_3_alg».proof.Proof.Spec
import proofs.«404791_j14422500180655_3_alg».proof.Proof.Curry
import Idealize.ShloMosaic.Lib.Pipeline.Value
import Idealize.ShloMosaic.Lib.StableHlo.Run
import Idealize.ShloMosaic.Lib.Tactic
import Idealize.ShloMosaic.Lib.ValueIdx
import Idealize.ShloMosaic.Lib.ReduceAll
import Idealize.ShloMosaic.Lib.Affine

noncomputable section
open Idealize.ShloMosaic Idealize.ShloMosaic.TcCoe Idealize.SL.Sem Idealize.ShloMosaic.ValueIdx
open Idealize.ShloMosaic.Pipeline (Dat)
namespace Cert.MolGnn.KV
open Cert.KernelIdeal Cert.KernelIdeal.Gen Cert.MolGnn
variable (m : (ℓ : Loc nD τ sig) → Buf (Elt Ideal) ℓ) (ρ : Dev nD → PrngReg)

/-- The start-index column of the embedding lookup: a negative index is wrapped by the table's height. -/
def idxCol (a0 : IVec S16384 32) : IVec S16384x1 32 :=
  broadcastInDim S16384x1 ![0] bcast_S16384_S16384x1_0
    (select (cmpi .slt a0 (broadcastInDim S16384 ![] bcast_S_S16384 (constantI S_ 32 0#32)))
      (addi a0 (broadcastInDim S16384 ![] bcast_S_S16384 (constantI S_ 32 10000#32))) a0)

/-- The looked-up embedding rows. -/
def gathered (a0 : IVec S16384 32) (a2 : FVec Ideal S10000x256 .f32) : FVec Ideal S16384x256 .f32 :=
  Host.gather gather_S10000x256_S16384x1_S16384x256_1_0_n_n_0_1_1256 a2 (idxCol a0)

/-- Per atom: is the wrapped index a row of the table? -/
def validRow (a0 : IVec S16384 32) : IVec S16384 1 :=
  Host.reduce IntOp.andi
    (andi (cmpi .sge (idxCol a0) (broadcastInDim S16384x1 ![] bcast_S_S16384x1 (constantI S_ 32 0#32)))
      (cmpi .sle (idxCol a0) (broadcastInDim S16384x1 ![0, 1] bcast_S1x1_S16384x1_0_1
        (broadcastInDim S1x1 ![1] bcast_S1_S1x1_1 (constantI S1 32 9999#32)))))
    (constantI S_ 1 1#1) reducesTo_S16384x1_S16384_d1 h_S_

theorem V_v1 (c : Dev nD) : (V m c main_v1 : S3x1x256.Idx → EReal) = shapeCast S3x1x256 (m ((c : Thread nD τ).loc main_arg4) : S3x256.Idx → EReal) shapeCasts_S3x256_S3x1x256 := by
  dsimp only [V, V0]
  simp only [hostOps0, hostOps0_1, List.flatten_cons, List.flatten_nil, List.append_nil, List.cons_append, List.nil_append]
  after_results
  rfl

set_option maxHeartbeats 4000000 in
theorem V_v0 (c : Dev nD) : (V m c main_v0 : S16384x256.Idx → EReal)
    = select (broadcastInDim S16384x256 ![0] bcast_S16384_S16384x256_0 (validRow (m ((c : Thread nD τ).loc main_arg0))))
        (gathered (m ((c : Thread nD τ).loc main_arg0)) (m ((c : Thread nD τ).loc main_arg2)))
        (broadcastInDim S16384x256 ![] bcast_S_S16384x256 (constant (F := Ideal) S_ .f32 0x7FC00000#32)) := by
  dsimp only [V, V0]
  simp only [hostOps0, hostOps0_1, List.flatten_cons, List.flatten_nil, List.append_nil, List.cons_append, List.nil_append]
  after_results
  simp only [StableHlo.TRef.toBuf, StableHlo.TRef.ofBuf, cast_eq]
  rfl

/-- A left fold by `and` from 1 over words that are all 1 is 1. -/
private theorem foldl_andi_ones {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi (1#1) (1#1) = 1#1 from by decide]
    exact foldl_andi_ones g hg l

/-- The wrapped index of atom `p` is the index itself when that is not negative. -/
theorem idxCol_apply (a0 : IVec S16384 32) (hat : ∀ p : Fin 16384, 0 ≤ (a0 (ix1 p)).toInt ∧ (a0 (ix1 p)).toInt < 10000)
    (k : S16384x1.Idx) : idxCol a0 k = a0 (ix1 (k 0)) := by
  unfold idxCol
  rw [broadcastInDim_apply _ bcast_S16384_S16384x1_0 _ k (ix1 (k 0)) (fun a => match a with
    | ⟨0, _⟩ => by show (k 0).val = if (16384 : Nat) = 1 then 0 else (k 0).val; rw [if_neg (by decide)])]
  rw [select_apply]
  have hneg : cmpi .slt a0 (broadcastInDim S16384 ![] bcast_S_S16384 (constantI S_ 32 0#32)) (ix1 (k 0)) = 0#1 := by
    apply eq_zero_of_ne_one
    intro h1
    have h2 : IntOp.cmpi .slt (a0 (ix1 (k 0))) 0#32 = 1#1 := h1
    have h3 := IntOp.cmpi_slt.1 h2
    have z : (0#32 : BitVec 32).toInt = 0 := by decide
    rw [z] at h3
    have := (hat (k 0)).1
    omega
  rw [hneg, select_zero]

/-- Every atom's wrapped index is a row of the table. -/
theorem validRow_ones (a0 : IVec S16384 32) (hat : ∀ p : Fin 16384, 0 ≤ (a0 (ix1 p)).toInt ∧ (a0 (ix1 p)).toInt < 10000) :
    validRow a0 = fun _ => 1#1 := by
  funext j
  unfold validRow Host.reduce
  refine foldl_andi_ones _ (fun n => ?_) _
  generalize S16384x1.rowMajor.symm n = k
  show IntOp.andi (IntOp.cmpi .sge (idxCol a0 k) 0#32) (IntOp.cmpi .sle (idxCol a0 k) 9999#32) = 1#1
  rw [idxCol_apply a0 hat k]
  have z : (0#32 : BitVec 32).toInt = 0 := by decide
  have t : (9999#32 : BitVec 32).toInt = 9999 := by decide
  refine IntOp.andi_eq_one.2 ⟨IntOp.cmpi_sge.2 ?_, IntOp.cmpi_sle.2 ?_⟩
  · rw [z]; exact (hat (k 0)).1
  · rw [t]; have := (hat (k 0)).2; omega

/-- With every atom index inside the table, the grid finds the gathered embedding rows. -/
theorem V_v0_gathered (c : Dev nD)
    (hat : ∀ p : Fin 16384, 0 ≤ ((m ((c : Thread nD τ).loc main_arg0) : IVec S16384 32) (ix1 p)).toInt
      ∧ ((m ((c : Thread nD τ).loc main_arg0) : IVec S16384 32) (ix1 p)).toInt < 10000) :
    (V m c main_v0 : S16384x256.Idx → EReal)
      = gathered (m ((c : Thread nD τ).loc main_arg0)) (m ((c : Thread nD τ).loc main_arg2)) := by
  rw [V_v0, validRow_ones _ hat]
  funext i
  rw [select_apply]
  rw [broadcastInDim_apply _ bcast_S16384_S16384x256_0 _ i (ix1 (i 0)) (fun a => match a with
    | ⟨0, _⟩ => by show (i 0).val = if (16384 : Nat) = 1 then 0 else (i 0).val; rw [if_neg (by decide)])]
  exact select_one _ _

end Cert.MolGnn.KV

end
-- ==== Proof.KernelValue.lean ====
/-
  The fused kernel's result array, read off its run.

  Grid point `t` works on tile `t`: atoms 1024 t … 1024 t + 1023, which are molecules 32 t … 32 t + 31. Its four
  input blocks are the diagonal adjacency tile, the tile's rows of the looked-up embeddings, and the whole
  weight and bias arrays; what it writes back is rows 32 t … 32 t + 31 of the pooled array. When the adjacency
  matrix joins atoms of one molecule only, the tile's own three-layer network pooled per molecule IS the
  whole network pooled per molecule, read at the tile's molecules. The sixteen output blocks tile the pooled
  array, so it ends holding the whole network's pooled features; the host's read-out follows.
-/
import proofs.«404791_j14422500180655_3_alg».proof.Proof.Gen.KernelIdeal.Frame
import proofs.«404791_j14422500180655_3_alg».proof.Proof.Spec
import proofs.«404791_j14422500180655_3_alg».proof.Proof.Curry
import proofs.«404791_j14422500180655_3_alg».proof.Proof.KernelTile
import proofs.«404791_j14422500180655_3_alg».proof.Proof.KernelPrefix
import Idealize.ShloMosaic.Lib.Pipeline.Value
import Idealize.ShloMosaic.Lib.StableHlo.Run
import Idealize.ShloMosaic.Lib.Tactic
import Idealize.ShloMosaic.Lib.ValueIdx

noncomputable section
open Idealize.ShloMosaic Idealize.ShloMosaic.TcCoe Idealize.SL.Sem Idealize.ShloMosaic.ValueIdx
open Idealize.ShloMosaic.Pipeline (Dat)
namespace Cert.MolGnn.KV
open Cert.KernelIdeal Cert.KernelIdeal.Gen Cert.MolGnn
variable (m : (ℓ : Loc nD τ sig) → Buf (Elt Ideal) ℓ) (ρ : Dev nD → PrngReg)

/-- The pooled features of the whole network, as an array over (molecule, feature). -/
def pooled (A : FVec Ideal S16384x16384 .f32) (W : FVec Ideal S3x256x256 .f32) (B : FVec Ideal S3x1x256 .f32)
    (X : FVec Ideal S16384x256 .f32) : FVec Ideal S512x256 .f32 :=
  fun j => pool atomRow (net (cur2 A) (cur3 W) (fun l k => B (ix3 l 0 k)) (cur2 X)) (j 0) (j 1)

/-- A grid point as the number of its tile. -/
def tileOf (t : Fin cfg0.N) : Fin 16 := ⟨t.val, lt_of_lt_of_eq t.isLt (show cfg0.N = 16 from N_0)⟩

/-- The block index of every window at every grid point: the adjacency window moves down the diagonal, the
    embedding and output windows move down their rows, the weights and biases stay. -/
theorem idx_facts : ∀ t : Fin cfg0.N,
    win0_0.index t (0 : Fin 2) = t.val ∧ win0_0.index t (1 : Fin 2) = t.val
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The adjacency block at point `t` is the diagonal tile `t`. -/
theorem ablk_apply (c : Dev nD) (t : Fin cfg0.N) (i k : Fin 1024) :
    (iblk m c 0 t : Vec Ideal S1024x1024 .f32) (ix2 i k)
      = (V m c main_arg1 : S16384x16384.Idx → EReal) (ix2 (tileRow (tileOf t) i) (tileRow (tileOf t) k)) := by
  obtain ⟨e0, e1, -⟩ := idx_facts t
  unfold iblk
  rw [View.read_apply]
  show V m c main_arg1 _ = V m c main_arg1 _
  congr 1
  funext a
  apply Fin.ext
  match a with
  | ⟨0, _⟩ => show win0_0.index t 0 * 1024 + 1 * i.val = 1024 * t.val + i.val; rw [e0]; omega
  | ⟨1, _⟩ => show win0_0.index t 1 * 1024 + 1 * k.val = 1024 * t.val + k.val; rw [e1]; omega

/-- The embedding block at point `t` is the rows of tile `t`. -/
theorem xblk_apply (c : Dev nD) (t : Fin cfg0.N) (i : Fin 1024) (q : Fin 256) :
    (iblk m c 1 t : Vec Ideal S1024x256 .f32) (ix2 i q)
      = (V m c main_v0 : S16384x256.Idx → EReal) (ix2 (tileRow (tileOf t) i) q) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t 0 * 1024 + 1 * i.val = 1024 * t.val + i.val; rw [e0]; omega
  | ⟨1, _⟩ => show win0_1.index t 1 * 256 + 1 * q.val = q.val; rw [e1]; omega

/-- The weight block is the whole weight array at every point. -/
theorem wblk_apply (c : Dev nD) (t : Fin cfg0.N) (l : Fin 3) (k q : Fin 256) :
    (iblk m c 2 t : Vec Ideal S3x256x256 .f32) (ix3 l k q)
      = (V m c main_arg3 : S3x256x256.Idx → EReal) (ix3 l k q) := by
  obtain ⟨-, -, -, -, e0, e1, e2, -⟩ := idx_facts t
  unfold iblk
  rw [View.read_apply]
  show V m c main_arg3 _ = V m c main_arg3 _
  congr 1
  funext a
  apply Fin.ext
  match a with
  | ⟨0, _⟩ => show win0_2.index t 0 * 3 + 1 * l.val = l.val; rw [e0]; omega
  | ⟨1, _⟩ => show win0_2.index t 1 * 256 + 1 * k.val = k.val; rw [e1]; omega
  | ⟨2, _⟩ => show win0_2.index t 2 * 256 + 1 * q.val = q.val; rw [e2]; omega

/-- The bias block is the whole bias array at every point. -/
theorem bblk_apply (c : Dev nD) (t : Fin cfg0.N) (l : Fin 3) (q : Fin 256) :
    (iblk m c 3 t : Vec Ideal S3x1x256 .f32) (ix3 l 0 q)
      = (V m c main_v1 : S3x1x256.Idx → EReal) (ix3 l 0 q) := by
  obtain ⟨-, -, -, -, -, -, -, e0, e1, e2, -⟩ := idx_facts t
  unfold iblk
  rw [View.read_apply]
  show V m c main_v1 _ = V m c main_v1 _
  congr 1
  funext a
  apply Fin.ext
  match a with
  | ⟨0, _⟩ => show win0_3.index t 0 * 3 + 1 * l.val = l.val; rw [e0]; omega
  | ⟨1, _⟩ => show win0_3.index t 1 * 1 + 1 * 0 = 0; rw [e1]
  | ⟨2, _⟩ => show win0_3.index t 2 * 256 + 1 * q.val = q.val; rw [e2]; omega

/-- What point `t` leaves in its output block at (molecule `m'` of the tile, feature `q`): the whole network's
    pooled features of molecule `32 t + m'`. -/
theorem block_value (c : Dev nD) (hbd : BlockDiag (cur2 (V m c main_arg1 : S16384x16384.Idx → EReal)))
    (t : Fin cfg0.N) (y : S32x256.Idx) :
    out0_4 (F := Ideal) (iblk m c 0 t) (iblk m c 1 t) (iblk m c 2 t) (iblk m c 3 t) y
      = pooled (V m c main_arg1) (V m c main_arg3) (V m c main_v1) (V m c main_v0) (ix2 (tileMol (tileOf t) (y 0)) (y 1)) := by
  have hy : y = ix2 (y 0) (y 1) := eq_ix2 y
  rw [hy]
  refine (tile_value (iblk m c 0 t) (iblk m c 1 t) (iblk m c 2 t) (iblk m c 3 t) (y 0) (y 1)).trans ?_
  have hA : cur2 (iblk m c 0 t : Vec Ideal S1024x1024 .f32)
      = fun i k => cur2 (V m c main_arg1 : S16384x16384.Idx → EReal) (tileRow (tileOf t) i) (tileRow (tileOf t) k) :=
    funext fun i => funext fun k => ablk_apply m c t i k
  have hX : cur2 (iblk m c 1 t : Vec Ideal S1024x256 .f32)
      = fun i => cur2 (V m c main_v0 : S16384x256.Idx → EReal) (tileRow (tileOf t) i) :=
    funext fun i => funext fun q => xblk_apply m c t i q
  have hW : cur3 (iblk m c 2 t : Vec Ideal S3x256x256 .f32) = cur3 (V m c main_arg3 : S3x256x256.Idx → EReal) :=
    funext fun l => funext fun k => funext fun q => wblk_apply m c t l k q
  have hB : (fun (l : Fin 3) (k : Fin 256) => (iblk m c 3 t : Vec Ideal S3x1x256 .f32) (ix3 l 0 k))
      = fun l k => (V m c main_v1 : S3x1x256.Idx → EReal) (ix3 l 0 k) :=
    funext fun l => funext fun q => bblk_apply m c t l q
  rw [hA, hX, hW, hB]
  exact tile_pool hbd _ _ _ (tileOf t) (y 0) (y 1)

/-- What point `t` writes back is block `t` of the pooled array. -/
theorem flushed_eq (c : Dev nD) (hbd : BlockDiag (cur2 (V m c main_arg1 : S16384x16384.Idx → EReal))) (t : Fin cfg0.N) :
    (dats m 0 c).flushed 4 t = ((cfg0.win 4).blk t).view.read (Elt Ideal)
      (pooled (V m c main_arg1) (V m c main_arg3) (V m c main_v1) (V m c main_v0)) := by
  show (cfg0.win 4).cut (grid0.coords t) ((dats m 0 c).after 4 t) = _
  rw [after0_4]
  obtain ⟨-, -, -, -, -, -, -, -, -, -, e0, e1⟩ := idx_facts t
  funext j
  show out0_4 (iblk m c 0 t) (iblk m c 1 t) (iblk m c 2 t) (iblk m c 3 t) j
    = pooled (V m c main_arg1) (V m c main_arg3) (V m c main_v1) (V m c main_v0) (((cfg0.win 4).blk t).view.emb j)
  refine (block_value m c hbd t j).trans (congrArg _ ?_)
  funext a
  apply Fin.ext
  match a with
  | ⟨0, _⟩ => show 32 * t.val + (j 0).val = win0_4.index t 0 * 32 + 1 * (j 0).val; rw [e0]; omega
  | ⟨1, _⟩ => show (j 1).val = win0_4.index t 1 * 256 + 1 * (j 1).val; rw [e1]; omega

/-- The pooled array after the run. -/
theorem final_pooled (c : Dev nD) (hbd : BlockDiag (cur2 (V m c main_arg1 : S16384x16384.Idx → EReal))) :
    (dats m 0 c).arrAt 4 cfg0.N = pooled (V m c main_arg1) (V m c main_arg3) (V m c main_v1) (V m c main_v0) :=
  (dats m 0 c).arrAt_eq_of_cover 4 _ (fun t _ => flushed_eq m c hbd t) fun i => by
    -- every (molecule, feature) lies in the output block of the molecule's tile
    have hi0 : (i 0 : Nat) < 512 := (i 0).isLt
    have hi1 : (i 1 : Nat) < 256 := (i 1).isLt
    have hN : cfg0.N = 16 := N_0
    have hlt : (i 0 : Nat) / 32 < cfg0.N := by rw [hN]; omega
    obtain ⟨-, -, -, -, -, -, -, -, -, -, e0, e1⟩ := idx_facts ⟨(i 0 : Nat) / 32, hlt⟩
    refine ⟨⟨(i 0 : Nat) / 32, hlt⟩, flush0_4 _, ?_⟩
    show i ∈ ((View.whole main_v2).slice (win0_4.rect ⟨(i 0 : Nat) / 32, hlt⟩)).set
    rw [View.set_slice_whole, Rect.mem_set_unit]
    intro a
    match a with
    | ⟨0, _⟩ =>
      show win0_4.index ⟨(i 0 : Nat) / 32, hlt⟩ 0 * 32 ≤ (i 0 : Nat) ∧ (i 0 : Nat) < win0_4.index ⟨(i 0 : Nat) / 32, hlt⟩ 0 * 32 + 32
      rw [e0]; show (i 0 : Nat) / 32 * 32 ≤ (i 0 : Nat) ∧ (i 0 : Nat) < (i 0 : Nat) / 32 * 32 + 32; omega
    | ⟨1, _⟩ =>
      show win0_4.index ⟨(i 0 : Nat) / 32, hlt⟩ 1 * 256 ≤ (i 1 : Nat) ∧ (i 1 : Nat) < win0_4.index ⟨(i 0 : Nat) / 32, hlt⟩ 1 * 256 + 256
      rw [e1]; omega

/-- The read-out as the program spells it: a product with the property weights plus the broadcast property bias. -/
def readoutArr (Y : FVec Ideal S512x256 .f32) (a5 : FVec Ideal S256x2 .f32) (a6 : FVec Ideal S2 .f32) : FVec Ideal S512x2 .f32 :=
  addf (Host.dotGeneral dot_S512x256_S256x2_S512x2_1_0_0_1_n_n none Y a5)
    (broadcastInDim S512x2 ![0, 1] bcast_S1x2_S512x2_0_1 (broadcastInDim S1x2 ![1] bcast_S2_S1x2_1 a6))

theorem tail_eq (c : Dev nD) :
    Pipeline.afterTail₀ cfgs (dats m) 0 (V0 m) [hostOps1] c main_v6
      = readoutArr ((dats m 0 c).arrAt 4 cfg0.N) (m ((c : Thread nD τ).loc main_arg5)) (m ((c : Thread nD τ).loc main_arg6)) := by
  unfold Pipeline.afterTail₀
  show StableHlo.after hostOps1 _ (Proc.devRef .tc main_v6) = _
  after_results
  have e2 : Pipeline.withArrays (cfgs 0).spec c (V0 m c) (fun w => (dats m 0 c).arrAt w (cfgs 0).N) (Proc.tc.devRef main_v2)
      = (dats m 0 c).arrAt 4 cfg0.N :=
    Pipeline.withArrays_arr spec0 launch0.win.arr_inj c (V0 m c) (fun w => (dats m 0 c).arrAt w cfg0.N) 4
  have e5 : Pipeline.withArrays (cfgs 0).spec c (V0 m c) (fun w => (dats m 0 c).arrAt w (cfgs 0).N) (Proc.tc.devRef main_arg5)
      = m ((c : Thread nD τ).loc main_arg5) :=
    (Pipeline.withArrays_of_ne spec0 c (V0 m c) (fun w => (dats m 0 c).arrAt w cfg0.N) main_arg5
      (by exact (by decide : ∀ w, Pipeline.arrRef spec0 w ≠ main_arg5))).trans (V_main_arg5 m c)
  have e6 : Pipeline.withArrays (cfgs 0).spec c (V0 m c) (fun w => (dats m 0 c).arrAt w (cfgs 0).N) (Proc.tc.devRef main_arg6)
      = m ((c : Thread nD τ).loc main_arg6) :=
    (Pipeline.withArrays_of_ne spec0 c (V0 m c) (fun w => (dats m 0 c).arrAt w cfg0.N) main_arg6
      (by exact (by decide : ∀ w, Pipeline.arrRef spec0 w ≠ main_arg6))).trans (V_main_arg6 m c)
  rw [e2, e5, e6]
  rfl

/-- The kernel's result as a function of its argument arrays: the read-out of the whole network's pooled
    features on the gathered embeddings, with the bias rows one per layer. -/
def result (c : Dev nD) : FVec Ideal S512x2 .f32 :=
  readoutArr
    (pooled (m ((c : Thread nD τ).loc main_arg1)) (m ((c : Thread nD τ).loc main_arg3))
      (shapeCast S3x1x256 (m ((c : Thread nD τ).loc main_arg4) : S3x256.Idx → EReal) shapeCasts_S3x256_S3x1x256)
      (gathered (m ((c : Thread nD τ).loc main_arg0)) (m ((c : Thread nD τ).loc main_arg2))))
    (m ((c : Thread nD τ).loc main_arg5)) (m ((c : Thread nD τ).loc main_arg6))

/-- After the host's read-out the result array holds `result`, when the adjacency matrix joins atoms of one
    molecule only and every atom index is a row of the embedding table. -/
theorem tail_value (c : Dev nD)
    (hbd : BlockDiag (cur2 (m ((c : Thread nD τ).loc main_arg1) : S16384x16384.Idx → EReal)))
    (hat : ∀ p : Fin 16384, 0 ≤ ((m ((c : Thread nD τ).loc main_arg0) : IVec S16384 32) (ix1 p)).toInt
      ∧ ((m ((c : Thread nD τ).loc main_arg0) : IVec S16384 32) (ix1 p)).toInt < 10000) :
    Pipeline.afterTail₀ cfgs (dats m) 0 (V0 m) [hostOps1] c main_v6 = result m c := by
  have hbd' : BlockDiag (cur2 (V m c main_arg1 : S16384x16384.Idx → EReal)) := by rw [V_main_arg1]; exact hbd
  rw [tail_eq, final_pooled m c hbd', V_v0_gathered m c hat, V_v1, V_main_arg1, V_main_arg3]
  rfl

/-- The arguments end as they started: each is an input window's array, or a buffer no window stages and no
    host line writes. -/
theorem args_kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(((h c).2 main_arg0 (Pipeline.mem_restRefs_of main_arg0 (by decide) (by decide))).trans (W_main_arg0 m (dats m) c)),
    ((h c).1 0).trans (((dats m 0 c).arrAt_in 0 rfl _).trans ((A_eq m c 0).trans (V_main_arg1 m c))),
    (((h c).2 main_arg2 (Pipeline.mem_restRefs_of main_arg2 (by decide) (by decide))).trans (W_main_arg2 m (dats m) c)),
    ((h c).1 2).trans (((dats m 0 c).arrAt_in 2 rfl _).trans ((A_eq m c 2).trans (V_main_arg3 m c))),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c))⟩

/-- THE RUN, READ: every weakly fair execution ends with the result array at `result` and the arguments unchanged. -/
theorem run
    (hbd : ∀ c : Dev nD, BlockDiag (cur2 (m ((c : Thread nD τ).loc main_arg1) : S16384x16384.Idx → EReal)))
    (hat : ∀ (c : Dev nD) (p : Fin 16384), 0 ≤ ((m ((c : Thread nD τ).loc main_arg0) : IVec S16384 32) (ix1 p)).toInt
      ∧ ((m ((c : Thread nD τ).loc main_arg0) : IVec S16384 32) (ix1 p)).toInt < 10000) :
    θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨((h c).2 main_v6 (Pipeline.mem_restRefs_of main_v6 (by decide) (by decide))).trans (tail_value m c (hbd c) (hat c)),
        args_kept m r h c⟩)
    (run_main m ρ)

end Cert.MolGnn.KV

end
-- ==== Proof.RefValue.lean ====
/-
  The reference's result, read one operation at a time, is the molecular graph network's closed form:
  three layers over ALL atoms with the whole adjacency matrix, the per-molecule sum, the read-out.
-/
import proofs.«404791_j14422500180655_3_alg».proof.Proof.Gen.ReferenceIdeal.Run
import proofs.«404791_j14422500180655_3_alg».proof.Proof.Gen.ReferenceIdeal.Read
import proofs.«404791_j14422500180655_3_alg».proof.Proof.Spec
import proofs.«404791_j14422500180655_3_alg».proof.Proof.Curry

noncomputable section

namespace Cert.MolGnn

open Idealize.ShloMosaic Idealize.ShloMosaic.ValueIdx Cert.ReferenceIdeal Cert.ReferenceIdeal.Read
open scoped BigOperators

/-- One layer read at coordinates. Given the stages of a layer as arrays -- the product `d = x · W`, the sum
    `s = d + bb` with a bias array constant along the atoms, the hidden features `h = max s z` against an array
    `z` of zeros, the aggregate `u = A · h` and the result `y = x + u` -- the result, by row and column, is
    `layer` of the matrices by row and column. -/
private theorem layer_read
    (A : S16384x16384.Idx → EReal) (W : S256x256.Idx → EReal)
    (x d bb s z h u y : S16384x256.Idx → EReal)
    (Wc : Fin 256 → Fin 256 → EReal) (bc : Fin 256 → EReal)
    (hW : ∀ k c, W (ix2 k c) = Wc k c)
    (hb : ∀ i c, bb (ix2 i c) = bc c)
    (hz : ∀ j, z j = 0)
    (hd : ∀ i c, d (ix2 i c) = ∑ k : Fin 256, x (ix2 i k) * W (ix2 k c))
    (hs : ∀ j, s j = d j + bb j)
    (hh : ∀ j, h j = max (s j) (z j))
    (hu : ∀ i c, u (ix2 i c) = ∑ k : Fin 16384, A (ix2 i k) * h (ix2 k c))
    (hy : ∀ j, y j = x j + u j) :
    cur2 y = layer (cur2 A) Wc bc (cur2 x) := by
  funext i c
  show y (ix2 i c) = x (ix2 i c) + ∑ k : Fin 16384, A (ix2 i k) * hidden Wc bc (cur2 x) k c
  rw [hy, hu]
  refine congrArg (x (ix2 i c) + ·) (Finset.sum_congr rfl fun k _ => ?_)
  show A (ix2 i k) * h (ix2 k c) = A (ix2 i k) * max ((∑ k' : Fin 256, x (ix2 k k') * Wc k' c) + bc c) 0
  rw [hh, hs, hz, hd, hb]
  refine congrArg (fun t => A (ix2 i k) * max (t + bc c) 0) (Finset.sum_congr rfl fun k' _ => ?_)
  rw [hW]

/-! ### Layer 0 -/

/-- The weight matrix of layer 0: member 0 of the stack, sliced out and reshaped. -/
private theorem w0_at (x3 : (⟨S3x256x256, .f32⟩ : BufTy).Contents (Elt Ideal)) (k c : Fin 256) :
    val_main_v8 (F := Ideal) x3 (ix2 k c) = cur3 x3 0 k c := by
  rw [val_main_v8_apply, val_main_v7_apply]
  show x3 _ = x3 (ix3 0 k c)
  refine congrArg x3 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- The bias of layer 0, broadcast along the atoms: row 0 of the bias matrix at the column. -/
private theorem b0_at (x4 : (⟨S3x256, .f32⟩ : BufTy).Contents (Elt Ideal)) (i : Fin 16384) (c : Fin 256) :
    val_main_v13 (F := Ideal) x4 (ix2 i c) = cur2 x4 0 c := by
  rw [val_main_v13_apply, val_main_v12_apply, val_main_v11_apply, val_main_v10_apply]
  show x4 _ = x4 (ix2 0 c)
  refine congrArg x4 (funext fun a => Fin.ext ?_)
  have hc := c.isLt
  match a with
  | ⟨0, _⟩ => rfl
  | ⟨1, _⟩ => show c.val % 256 = c.val; omega

/-- The array the hidden features are compared with is zero everywhere. -/
private theorem z0_at (j : S16384x256.Idx) : val_main_call0_v0 (F := Ideal) j = 0 := by
  rw [val_main_call0_v0_apply, val_main_call0_cst_apply]
  exact Ideal.ofBits_zero_f32

/-- The product of the features with the weights, at row `i` and column `c`. -/
private theorem d0_at (x0 : (⟨S16384, .i32⟩ : BufTy).Contents (Elt Ideal)) (x2 : (⟨S10000x256, .f32⟩ : BufTy).Contents (Elt Ideal)) (x3 : (⟨S3x256x256, .f32⟩ : BufTy).Contents (Elt Ideal)) (i : Fin 16384) (c : Fin 256) :
    val_main_v9 (F := Ideal) x0 x2 x3 (ix2 i c)
      = ∑ k : Fin 256, val_main_v6 (F := Ideal) x0 x2 (ix2 i k) * val_main_v8 (F := Ideal) x3 (ix2 k c) := by
  rw [val_main_v9_apply]
  refine Finset.sum_congr rfl fun k _ => ?_
  have el : lidx_main_v9 (ix2 i c) k = ix2 i k :=
    funext fun a => Fin.ext (by match a with | ⟨0, _⟩ => rfl | ⟨1, _⟩ => rfl)
  have er : ridx_main_v9 (ix2 i c) k = ix2 k c :=
    funext fun a => Fin.ext (by match a with | ⟨0, _⟩ => rfl | ⟨1, _⟩ => rfl)
  rw [el, er]

/-- The adjacency-weighted sum of the hidden features over all atoms, at row `i` and column `c`. -/
private theorem u0_at (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) (i : Fin 16384) (c : Fin 256) :
    val_main_v16 (F := Ideal) x0 x1 x2 x3 x4 (ix2 i c)
      = ∑ k : Fin 16384, x1 (ix2 i k) * val_main_v15 (F := Ideal) x0 x2 x3 x4 (ix2 k c) := by
  rw [val_main_v16_apply]
  refine Finset.sum_congr rfl fun k _ => ?_
  have el : lidx_main_v16 (ix2 i c) k = ix2 i k :=
    funext fun a => Fin.ext (by match a with | ⟨0, _⟩ => rfl | ⟨1, _⟩ => rfl)
  have er : ridx_main_v16 (ix2 i c) k = ix2 k c :=
    funext fun a => Fin.ext (by match a with | ⟨0, _⟩ => rfl | ⟨1, _⟩ => rfl)
  rw [el, er]

/-- The features after layer 0, by atom and feature, are `layer` of the features before it. -/
private theorem v17_cur (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) :
    cur2 (val_main_v17 (F := Ideal) x0 x1 x2 x3 x4)
      = layer (cur2 x1) (cur3 x3 0) (cur2 x4 0) (cur2 (val_main_v6 (F := Ideal) x0 x2)) :=
  layer_read x1 (val_main_v8 (F := Ideal) x3) (val_main_v6 (F := Ideal) x0 x2) (val_main_v9 (F := Ideal) x0 x2 x3)
    (val_main_v13 (F := Ideal) x4) (val_main_v14 (F := Ideal) x0 x2 x3 x4) (val_main_call0_v0 (F := Ideal))
    (val_main_v15 (F := Ideal) x0 x2 x3 x4) (val_main_v16 (F := Ideal) x0 x1 x2 x3 x4) (val_main_v17 (F := Ideal) x0 x1 x2 x3 x4)
    (cur3 x3 0) (cur2 x4 0) (w0_at x3) (b0_at x4) z0_at (d0_at x0 x2 x3)
    (fun j => val_main_v14_apply x0 x2 x3 x4 j) (fun j => val_main_v15_apply x0 x2 x3 x4 j)
    (u0_at x0 x1 x2 x3 x4) (fun j => val_main_v17_apply x0 x1 x2 x3 x4 j)

/-! ### Layer 1 -/

/-- The weight matrix of layer 1: member 1 of the stack, sliced out and reshaped. -/
private theorem w1_at (x3 : (⟨S3x256x256, .f32⟩ : BufTy).Contents (Elt Ideal)) (k c : Fin 256) :
    val_main_v19 (F := Ideal) x3 (ix2 k c) = cur3 x3 1 k c := by
  rw [val_main_v19_apply, val_main_v18_apply]
  show x3 _ = x3 (ix3 1 k c)
  refine congrArg x3 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- The bias of layer 1, broadcast along the atoms: row 1 of the bias matrix at the column. -/
private theorem b1_at (x4 : (⟨S3x256, .f32⟩ : BufTy).Contents (Elt Ideal)) (i : Fin 16384) (c : Fin 256) :
    val_main_v24 (F := Ideal) x4 (ix2 i c) = cur2 x4 1 c := by
  rw [val_main_v24_apply, val_main_v23_apply, val_main_v22_apply, val_main_v21_apply]
  show x4 _ = x4 (ix2 1 c)
  refine congrArg x4 (funext fun a => Fin.ext ?_)
  have hc := c.isLt
  match a with
  | ⟨0, _⟩ => rfl
  | ⟨1, _⟩ => show c.val % 256 = c.val; omega

/-- The array the hidden features are compared with is zero everywhere. -/
private theorem z1_at (j : S16384x256.Idx) : val_main_call1_v0 (F := Ideal) j = 0 := by
  rw [val_main_call1_v0_apply, val_main_call1_cst_apply]
  exact Ideal.ofBits_zero_f32

/-- The product of the features with the weights, at row `i` and column `c`. -/
private theorem d1_at (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) (i : Fin 16384) (c : Fin 256) :
    val_main_v20 (F := Ideal) x0 x1 x2 x3 x4 (ix2 i c)
      = ∑ k : Fin 256, val_main_v17 (F := Ideal) x0 x1 x2 x3 x4 (ix2 i k) * val_main_v19 (F := Ideal) x3 (ix2 k c) := by
  rw [val_main_v20_apply]
  refine Finset.sum_congr rfl fun k _ => ?_
  have el : lidx_main_v20 (ix2 i c) k = ix2 i k :=
    funext fun a => Fin.ext (by match a with | ⟨0, _⟩ => rfl | ⟨1, _⟩ => rfl)
  have er : ridx_main_v20 (ix2 i c) k = ix2 k c :=
    funext fun a => Fin.ext (by match a with | ⟨0, _⟩ => rfl | ⟨1, _⟩ => rfl)
  rw [el, er]

/-- The adjacency-weighted sum of the hidden features over all atoms, at row `i` and column `c`. -/
private theorem u1_at (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) (i : Fin 16384) (c : Fin 256) :
    val_main_v27 (F := Ideal) x0 x1 x2 x3 x4 (ix2 i c)
      = ∑ k : Fin 16384, x1 (ix2 i k) * val_main_v26 (F := Ideal) x0 x1 x2 x3 x4 (ix2 k c) := by
  rw [val_main_v27_apply]
  refine Finset.sum_congr rfl fun k _ => ?_
  have el : lidx_main_v27 (ix2 i c) k = ix2 i k :=
    funext fun a => Fin.ext (by match a with | ⟨0, _⟩ => rfl | ⟨1, _⟩ => rfl)
  have er : ridx_main_v27 (ix2 i c) k = ix2 k c :=
    funext fun a => Fin.ext (by match a with | ⟨0, _⟩ => rfl | ⟨1, _⟩ => rfl)
  rw [el, er]

/-- The features after layer 1, by atom and feature, are `layer` of the features before it. -/
private theorem v28_cur (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) :
    cur2 (val_main_v28 (F := Ideal) x0 x1 x2 x3 x4)
      = layer (cur2 x1) (cur3 x3 1) (cur2 x4 1) (cur2 (val_main_v17 (F := Ideal) x0 x1 x2 x3 x4)) :=
  layer_read x1 (val_main_v19 (F := Ideal) x3) (val_main_v17 (F := Ideal) x0 x1 x2 x3 x4) (val_main_v20 (F := Ideal) x0 x1 x2 x3 x4)
    (val_main_v24 (F := Ideal) x4) (val_main_v25 (F := Ideal) x0 x1 x2 x3 x4) (val_main_call1_v0 (F := Ideal))
    (val_main_v26 (F := Ideal) x0 x1 x2 x3 x4) (val_main_v27 (F := Ideal) x0 x1 x2 x3 x4) (val_main_v28 (F := Ideal) x0 x1 x2 x3 x4)
    (cur3 x3 1) (cur2 x4 1) (w1_at x3) (b1_at x4) z1_at (d1_at x0 x1 x2 x3 x4)
    (fun j => val_main_v25_apply x0 x1 x2 x3 x4 j) (fun j => val_main_v26_apply x0 x1 x2 x3 x4 j)
    (u1_at x0 x1 x2 x3 x4) (fun j => val_main_v28_apply x0 x1 x2 x3 x4 j)

/-! ### Layer 2 -/

/-- The weight matrix of layer 2: member 2 of the stack, sliced out and reshaped. -/
private theorem w2_at (x3 : (⟨S3x256x256, .f32⟩ : BufTy).Contents (Elt Ideal)) (k c : Fin 256) :
    val_main_v30 (F := Ideal) x3 (ix2 k c) = cur3 x3 2 k c := by
  rw [val_main_v30_apply, val_main_v29_apply]
  show x3 _ = x3 (ix3 2 k c)
  refine congrArg x3 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- The bias of layer 2, broadcast along the atoms: row 2 of the bias matrix at the column. -/
private theorem b2_at (x4 : (⟨S3x256, .f32⟩ : BufTy).Contents (Elt Ideal)) (i : Fin 16384) (c : Fin 256) :
    val_main_v35 (F := Ideal) x4 (ix2 i c) = cur2 x4 2 c := by
  rw [val_main_v35_apply, val_main_v34_apply, val_main_v33_apply, val_main_v32_apply]
  show x4 _ = x4 (ix2 2 c)
  refine congrArg x4 (funext fun a => Fin.ext ?_)
  have hc := c.isLt
  match a with
  | ⟨0, _⟩ => rfl
  | ⟨1, _⟩ => show c.val % 256 = c.val; omega

/-- The array the hidden features are compared with is zero everywhere. -/
private theorem z2_at (j : S16384x256.Idx) : val_main_call2_v0 (F := Ideal) j = 0 := by
  rw [val_main_call2_v0_apply, val_main_call2_cst_apply]
  exact Ideal.ofBits_zero_f32

/-- The product of the features with the weights, at row `i` and column `c`. -/
private theorem d2_at (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) (i : Fin 16384) (c : Fin 256) :
    val_main_v31 (F := Ideal) x0 x1 x2 x3 x4 (ix2 i c)
      = ∑ k : Fin 256, val_main_v28 (F := Ideal) x0 x1 x2 x3 x4 (ix2 i k) * val_main_v30 (F := Ideal) x3 (ix2 k c) := by
  rw [val_main_v31_apply]
  refine Finset.sum_congr rfl fun k _ => ?_
  have el : lidx_main_v31 (ix2 i c) k = ix2 i k :=
    funext fun a => Fin.ext (by match a with | ⟨0, _⟩ => rfl | ⟨1, _⟩ => rfl)
  have er : ridx_main_v31 (ix2 i c) k = ix2 k c :=
    funext fun a => Fin.ext (by match a with | ⟨0, _⟩ => rfl | ⟨1, _⟩ => rfl)
  rw [el, er]

/-- The adjacency-weighted sum of the hidden features over all atoms, at row `i` and column `c`. -/
private theorem u2_at (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) (i : Fin 16384) (c : Fin 256) :
    val_main_v38 (F := Ideal) x0 x1 x2 x3 x4 (ix2 i c)
      = ∑ k : Fin 16384, x1 (ix2 i k) * val_main_v37 (F := Ideal) x0 x1 x2 x3 x4 (ix2 k c) := by
  rw [val_main_v38_apply]
  refine Finset.sum_congr rfl fun k _ => ?_
  have el : lidx_main_v38 (ix2 i c) k = ix2 i k :=
    funext fun a => Fin.ext (by match a with | ⟨0, _⟩ => rfl | ⟨1, _⟩ => rfl)
  have er : ridx_main_v38 (ix2 i c) k = ix2 k c :=
    funext fun a => Fin.ext (by match a with | ⟨0, _⟩ => rfl | ⟨1, _⟩ => rfl)
  rw [el, er]

/-- The features after layer 2, by atom and feature, are `layer` of the features before it. -/
private theorem v39_cur (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) :
    cur2 (val_main_v39 (F := Ideal) x0 x1 x2 x3 x4)
      = layer (cur2 x1) (cur3 x3 2) (cur2 x4 2) (cur2 (val_main_v28 (F := Ideal) x0 x1 x2 x3 x4)) :=
  layer_read x1 (val_main_v30 (F := Ideal) x3) (val_main_v28 (F := Ideal) x0 x1 x2 x3 x4) (val_main_v31 (F := Ideal) x0 x1 x2 x3 x4)
    (val_main_v35 (F := Ideal) x4) (val_main_v36 (F := Ideal) x0 x1 x2 x3 x4) (val_main_call2_v0 (F := Ideal))
    (val_main_v37 (F := Ideal) x0 x1 x2 x3 x4) (val_main_v38 (F := Ideal) x0 x1 x2 x3 x4) (val_main_v39 (F := Ideal) x0 x1 x2 x3 x4)
    (cur3 x3 2) (cur2 x4 2) (w2_at x3) (b2_at x4) z2_at (d2_at x0 x1 x2 x3 x4)
    (fun j => val_main_v36_apply x0 x1 x2 x3 x4 j) (fun j => val_main_v37_apply x0 x1 x2 x3 x4 j)
    (u2_at x0 x1 x2 x3 x4) (fun j => val_main_v39_apply x0 x1 x2 x3 x4 j)

/-! ### The three layers, the per-molecule sum, the read-out -/

/-- The features after the third layer are the network of the gathered embeddings. -/
private theorem v39_net (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) :
    cur2 (val_main_v39 (F := Ideal) x0 x1 x2 x3 x4) = net (cur2 x1) (cur3 x3) (cur2 x4) (cur2 (val_main_v6 (F := Ideal) x0 x2)) := by
  rw [v39_cur, v28_cur, v17_cur]
  rfl

/-- The reshape to molecules by atoms by features reads atom `32 p + a`. -/
private theorem v40_at (x0 : (⟨S16384, .i32⟩ : BufTy).Contents (Elt Ideal)) (x1 : (⟨S16384x16384, .f32⟩ : BufTy).Contents (Elt Ideal)) (x2 : (⟨S10000x256, .f32⟩ : BufTy).Contents (Elt Ideal)) (x3 : (⟨S3x256x256, .f32⟩ : BufTy).Contents (Elt Ideal)) (x4 : (⟨S3x256, .f32⟩ : BufTy).Contents (Elt Ideal)) (p : Fin 512) (a : Fin 32) (c : Fin 256) :
    val_main_v40 (F := Ideal) x0 x1 x2 x3 x4 (ix3 p a c)
      = net (cur2 x1) (cur3 x3) (cur2 x4) (cur2 (val_main_v6 (F := Ideal) x0 x2)) (atomRow p a) c := by
  rw [val_main_v40_apply, ← v39_net]
  show val_main_v39 (F := Ideal) x0 x1 x2 x3 x4 _ = val_main_v39 (F := Ideal) x0 x1 x2 x3 x4 (ix2 (atomRow p a) c)
  refine congrArg (val_main_v39 (F := Ideal) x0 x1 x2 x3 x4) (funext fun d => Fin.ext ?_)
  have hp := p.isLt
  have ha := a.isLt
  have hc := c.isLt
  match d with
  | ⟨0, _⟩ => show ((p.val * 32 + a.val) * 256 + c.val) / 256 = 32 * p.val + a.val; omega
  | ⟨1, _⟩ => show ((p.val * 32 + a.val) * 256 + c.val) % 256 = c.val; omega

/-- The reference's per-molecule sum is the pooled network on the gathered embeddings: the sum starts from zero. -/
theorem ref_pooled (x0 : (⟨S16384, .i32⟩ : BufTy).Contents (Elt Ideal)) (x1 : (⟨S16384x16384, .f32⟩ : BufTy).Contents (Elt Ideal))
    (x2 : (⟨S10000x256, .f32⟩ : BufTy).Contents (Elt Ideal)) (x3 : (⟨S3x256x256, .f32⟩ : BufTy).Contents (Elt Ideal))
    (x4 : (⟨S3x256, .f32⟩ : BufTy).Contents (Elt Ideal)) :
    val_main_v41 (F := Ideal) x0 x1 x2 x3 x4
      = fun j => pool atomRow (net (cur2 x1) (cur3 x3) (cur2 x4) (cur2 (val_main_v6 (F := Ideal) x0 x2))) (j 0) (j 1) := by
  funext j
  obtain ⟨p, c, rfl⟩ : ∃ (p : Fin 512) (c : Fin 256), j = ix2 p c := ⟨j 0, j 1, eq_ix2 j⟩
  show _ = ∑ a : Fin 32, net (cur2 x1) (cur3 x3) (cur2 x4) (cur2 (val_main_v6 (F := Ideal) x0 x2)) (atomRow p a) c
  rw [val_main_v41_apply, val_main_cst_apply]
  refine (congrArg (· + _) Ideal.ofBits_zero_f32).trans ?_
  rw [zero_add]
  refine Finset.sum_congr rfl fun a _ => ?_
  have e : idx_main_v41 (ix2 p c) a = ix3 p a c :=
    funext fun d => Fin.ext (by match d with | ⟨0, _⟩ => rfl | ⟨1, _⟩ => rfl | ⟨2, _⟩ => rfl)
  rw [e, v40_at]

/-- The reference's last stage is the read-out of the pooled network on the gathered embeddings. -/
theorem ref_value (x0 : (⟨S16384, .i32⟩ : BufTy).Contents (Elt Ideal)) (x1 : (⟨S16384x16384, .f32⟩ : BufTy).Contents (Elt Ideal))
    (x2 : (⟨S10000x256, .f32⟩ : BufTy).Contents (Elt Ideal)) (x3 : (⟨S3x256x256, .f32⟩ : BufTy).Contents (Elt Ideal))
    (x4 : (⟨S3x256, .f32⟩ : BufTy).Contents (Elt Ideal)) (x5 : (⟨S256x2, .f32⟩ : BufTy).Contents (Elt Ideal))
    (x6 : (⟨S2, .f32⟩ : BufTy).Contents (Elt Ideal)) :
    val_main_v45 (F := Ideal) x0 x1 x2 x3 x4 x5 x6
      = fun j => readout (cur2 x5) (cur1 x6)
          (pool atomRow (net (cur2 x1) (cur3 x3) (cur2 x4) (cur2 (val_main_v6 (F := Ideal) x0 x2)))) (j 0) (j 1) := by
  funext j
  obtain ⟨p, q, rfl⟩ : ∃ (p : Fin 512) (q : Fin 2), j = ix2 p q := ⟨j 0, j 1, eq_ix2 j⟩
  show _ = (∑ c : Fin 256, pool atomRow (net (cur2 x1) (cur3 x3) (cur2 x4) (cur2 (val_main_v6 (F := Ideal) x0 x2))) p c * x5 (ix2 c q)) + x6 (ix1 q)
  rw [val_main_v45_apply, val_main_v42_apply, val_main_v44_apply, val_main_v43_apply, ref_pooled]
  have eb : idx_main_v43 (idx_main_v44 (ix2 p q)) = ix1 q :=
    funext fun d => Fin.ext (by match d with | ⟨0, _⟩ => rfl)
  rw [eb]
  refine congrArg (· + x6 (ix1 q)) (Finset.sum_congr rfl fun c _ => ?_)
  have el : lidx_main_v42 (ix2 p q) c = ix2 p c :=
    funext fun d => Fin.ext (by match d with | ⟨0, _⟩ => rfl | ⟨1, _⟩ => rfl)
  have er : ridx_main_v42 (ix2 p q) c = ix2 c q :=
    funext fun d => Fin.ext (by match d with | ⟨0, _⟩ => rfl | ⟨1, _⟩ => rfl)
  rw [el, er]

end Cert.MolGnn

end
-- ==== Proof.Join.lean ====
/-
  The two programs compute one function of their arguments.

  The reference pools the whole three-layer network and reads it out; the kernel's result array was shown to hold
  the read-out of the same pooled network. What is left is spelling: the kernel keeps its bias rows in an array
  with one row per layer (row `l` of it is row `l` of the bias matrix), both programs look the embeddings up
  with the same wrapped index column, and both end with the same product and bias for the two properties.
-/
import proofs.«404791_j14422500180655_3_alg».proof.Proof.RefValue
import proofs.«404791_j14422500180655_3_alg».proof.Proof.KernelValue
import Idealize.ShloMosaic.Lib.Pipeline.Value

noncomputable section

namespace Cert.MolGnn

open Idealize.ShloMosaic Idealize.ShloMosaic.ValueIdx

/-- Row `l` of the bias array laid out one row per layer is row `l` of the bias matrix. -/
theorem bias_rows (x4 : FVec Ideal Cert.KernelIdeal.S3x256 .f32) :
    (fun (l : Fin 3) (k : Fin 256) =>
        shapeCast Cert.KernelIdeal.S3x1x256 x4 Cert.KernelIdeal.Gen.shapeCasts_S3x256_S3x1x256 (ix3 l 0 k))
      = cur2 x4 := by
  funext l k
  unfold cur2
  refine shapeCast_apply x4 _ (ix3 l 0 k) (ix2 l k) ?_
  rewrite [Shape.rowMajor_val_two, Shape.rowMajor_val_three]
  show l.val * 256 + k.val = (l.val * 1 + 0) * 256 + k.val
  omega

open Cert.ReferenceIdeal Cert.ReferenceIdeal.Read in
/-- The reference's result is the kernel's function of the same arguments. -/
theorem ref_result (x0 : (⟨S16384, .i32⟩ : BufTy).Contents (Elt Ideal)) (x1 : (⟨S16384x16384, .f32⟩ : BufTy).Contents (Elt Ideal))
    (x2 : (⟨S10000x256, .f32⟩ : BufTy).Contents (Elt Ideal)) (x3 : (⟨S3x256x256, .f32⟩ : BufTy).Contents (Elt Ideal))
    (x4 : (⟨S3x256, .f32⟩ : BufTy).Contents (Elt Ideal)) (x5 : (⟨S256x2, .f32⟩ : BufTy).Contents (Elt Ideal))
    (x6 : (⟨S2, .f32⟩ : BufTy).Contents (Elt Ideal)) :
    val_main_v45 (F := Ideal) x0 x1 x2 x3 x4 x5 x6
      = KV.readoutArr
          (KV.pooled x1 x3 (shapeCast Cert.KernelIdeal.S3x1x256 x4 Cert.KernelIdeal.Gen.shapeCasts_S3x256_S3x1x256)
            (KV.gathered x0 x2)) x5 x6 := by
  have hp : KV.pooled x1 x3 (shapeCast Cert.KernelIdeal.S3x1x256 x4 Cert.KernelIdeal.Gen.shapeCasts_S3x256_S3x1x256)
      (KV.gathered x0 x2) = val_main_v41 (F := Ideal) x0 x1 x2 x3 x4 := by
    rw [ref_pooled]
    unfold KV.pooled
    rw [bias_rows]
    rfl
  rw [hp]
  rfl

end Cert.MolGnn

end
-- ==== Proof.lean ====
/-
  A fused three-layer molecular graph network against its plain reference, over the extended reals.

  Reference: look the atom embeddings up, apply three times `x ← x + A · relu (x · W + b)` with the whole
  16384 × 16384 adjacency matrix `A`, sum each molecule's 32 atoms, read two properties out. Kernel: the same
  lookup and read-out on the host, and between them one grid of 16 points, each running the three layers on a
  tile of 1024 atoms with only the DIAGONAL 1024 × 1024 tile of `A`, then summing the tile's 32 molecules.

  The two agree exactly where `A` joins atoms of one molecule only (then a tile of whole molecules never sees
  another tile's atoms: Spec.lean's law) and every atom index is a row of the embedding table (outside it the
  kernel's lookup fills a filler where the reference's clamps). Both facts are conjuncts of the precondition
  (PreFacts.lean reads them out of it). No finiteness is used: the law needs only that sums commute and
  that `0 · x = 0`, which hold for every extended real.

  Kernel side: KernelPrefix.lean (the arrays the host computes before the grid), KernelTile.lean (one grid
  point's output block), KernelValue.lean (blocks to the whole array, the read-out, the run). Reference side:
  RefValue.lean. Join.lean identifies the two spellings.
-/
import proofs.«404791_j14422500180655_3_alg».proof.Defs
import proofs.«404791_j14422500180655_3_alg».proof.Proof.Gen.Kernel
import proofs.«404791_j14422500180655_3_alg».proof.Proof.Gen.Kernel.Skeleton
import proofs.«404791_j14422500180655_3_alg».proof.Proof.Gen.Kernel.Launch
import proofs.«404791_j14422500180655_3_alg».proof.Proof.Gen.Kernel.Points
import proofs.«404791_j14422500180655_3_alg».proof.Proof.Gen.Kernel.Frame
import proofs.«404791_j14422500180655_3_alg».proof.Proof.Gen.KernelIdeal
import proofs.«404791_j14422500180655_3_alg».proof.Proof.Gen.KernelIdeal.Skeleton
import proofs.«404791_j14422500180655_3_alg».proof.Proof.Gen.KernelIdeal.Launch
import proofs.«404791_j14422500180655_3_alg».proof.Proof.Gen.KernelIdeal.Points
import proofs.«404791_j14422500180655_3_alg».proof.Proof.Gen.KernelIdeal.Frame
import proofs.«404791_j14422500180655_3_alg».proof.Proof.Gen.ReferenceIdeal
import proofs.«404791_j14422500180655_3_alg».proof.Proof.Gen.ReferenceIdeal.Run
import proofs.«404791_j14422500180655_3_alg».proof.Proof.Gen.ReferenceIdeal.Read
import proofs.«404791_j14422500180655_3_alg».proof.Proof.Gen.Pre_finite_inputs
import proofs.«404791_j14422500180655_3_alg».proof.Proof.PreFacts
import proofs.«404791_j14422500180655_3_alg».proof.Proof.KernelValue
import proofs.«404791_j14422500180655_3_alg».proof.Proof.Join
import Idealize.ShloMosaic.Adequacy
import Idealize.ShloMosaic.Init

noncomputable section

namespace Cert.Proof

open Idealize.ShloMosaic Idealize.ShloMosaic.TcCoe Idealize.SL.Sem Idealize.ShloMosaic.ValueIdx Cert.MolGnn

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end with the read-out of
    the whole network's pooled features on the looked-up embeddings. -/
theorem algebraic : Cert.algebraic_KernelIdeal_ReferenceIdeal := by
  intro m ρ m' ρ' hpre hagree
  have hbd : ∀ c : Dev Cert.KernelIdeal.nD,
      BlockDiag (cur2 (m ((c.tc : Thread Cert.KernelIdeal.nD Cert.KernelIdeal.τ).loc Cert.KernelIdeal.main_arg1)
        : Cert.KernelIdeal.S16384x16384.Idx → EReal)) :=
    fun c => pre_blockDiag _ _ _ _ _ _ _ (hpre c)
  have hat : ∀ (c : Dev Cert.KernelIdeal.nD) (p : Fin 16384),
      0 ≤ ((m ((c.tc : Thread Cert.KernelIdeal.nD Cert.KernelIdeal.τ).loc Cert.KernelIdeal.main_arg0)
          : IVec Cert.KernelIdeal.S16384 32) (ix1 p)).toInt
      ∧ ((m ((c.tc : Thread Cert.KernelIdeal.nD Cert.KernelIdeal.τ).loc Cert.KernelIdeal.main_arg0)
          : IVec Cert.KernelIdeal.S16384 32) (ix1 p)).toInt < 10000 :=
    fun c p => pre_atoms _ _ _ _ _ _ _ (hpre c) p
  refine ⟨fun c => KV.result m c, KV.run m ρ hbd hat, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, ref_result]
  obtain ⟨a0, a1, a2, a3, a4, a5, a6⟩ := hagree c
  rw [a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
